-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x24 : Shape := ⟨2, ![128, 24]⟩
abbrev S24 : Shape := ⟨1, ![24]⟩
abbrev S24x128 : Shape := ⟨2, ![24, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x24 : S_.BroadcastsInDim S128x24 (![] : Fin 0 → Fin S128x24.rank)
  reducesTo_S128x24_S_d0_1 : S128x24.ReducesTo [0, 1] S_
  bcast_S_S24 : S_.BroadcastsInDim S24 (![] : Fin 0 → Fin S24.rank)
  reducesTo_S24_S_d0 : S24.ReducesTo [0] S_
  bcast_S_S24x128 : S_.BroadcastsInDim S24x128 (![] : Fin 0 → Fin S24x128.rank)
  reducesTo_S24x128_S_d0_1 : S24x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S24x128 .f32) (main_arg5 : FVec F S128 .f32) (main_v13 : IVec S_ 1) (main_v16 : IVec S24 1) : IVec S_ 1 :=
  let main_c_5 : IVec S_ 1 := constantI S_ 1 1#1
  let main_v17 : IVec S_ 1 := (fun x v => Host.reduce IntOp.andi x v reducesTo_S24_S_d0 h_S_) main_v16 main_c_5
  let main_v18 : IVec S_ 1 := andi main_v13 main_v17
  let main_v19 : FVec F S24x128 .f32 := Host.absf main_arg4
  let main_cst_6 : FVec F S_ .f32 := constant S_ .f32 0x7F800000#32
  let main_v20 : FVec F S24x128 .f32 := broadcastInDim S24x128 ![] bcast_S_S24x128 main_cst_6
  let main_v21 : IVec S24x128 1 := cmpf .olt main_v19 main_v20
  let main_c_7 : IVec S_ 1 := constantI S_ 1 1#1
  let main_v22 : IVec S_ 1 := (fun x v => Host.reduce IntOp.andi x v reducesTo_S24x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x24 .f32) (main_arg3 : FVec F S24 .f32) (main_arg4 : FVec F S24x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x24 .f32 := Host.absf main_arg2
  let main_cst_2 : FVec F S_ .f32 := constant S_ .f32 0x7F800000#32
  let main_v10 : FVec F S128x24 .f32 := broadcastInDim S128x24 ![] bcast_S_S128x24 main_cst_2
  let main_v11 : IVec S128x24 1 := cmpf .olt main_v9 main_v10
  let main_c_3 : IVec S_ 1 := constantI S_ 1 1#1
  let main_v12 : IVec S_ 1 := (fun x v => Host.reduce IntOp.andi x v reducesTo_S128x24_S_d0_1 h_S_) main_v11 main_c_3
  let main_v13 : IVec S_ 1 := andi main_v8 main_v12
  let main_v14 : FVec F S24 .f32 := Host.absf main_arg3
  let main_cst_4 : FVec F S_ .f32 := constant S_ .f32 0x7F800000#32
  let main_v15 : FVec F S24 .f32 := broadcastInDim S24 ![] bcast_S_S24 main_cst_4
  let main_v16 : IVec S24 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x24 : Shape := ⟨2, ![128, 24]⟩
abbrev S24 : Shape := ⟨1, ![24]⟩
abbrev S24x128 : Shape := ⟨2, ![24, 128]⟩
abbrev S128 : Shape := ⟨1, ![128]⟩
abbrev S1x24 : Shape := ⟨2, ![1, 24]⟩
abbrev S1x128 : Shape := ⟨2, ![1, 128]⟩
abbrev S624x10000 : Shape := ⟨2, ![624, 10000]⟩
abbrev S624x128 : Shape := ⟨2, ![624, 128]⟩
abbrev S10000x24 : Shape := ⟨2, ![10000, 24]⟩
abbrev S624x24 : Shape := ⟨2, ![624, 24]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x24, .f32⟩
  | .hbm, ⟨3, _⟩ => ⟨S24, .f32⟩
  | .hbm, ⟨4, _⟩ => ⟨S24x128, .f32⟩
  | .hbm, ⟨5, _⟩ => ⟨S128, .f32⟩
  | .hbm, ⟨6, _⟩ => ⟨S1x24, .f32⟩
  | .hbm, ⟨7, _⟩ => ⟨S1x128, .f32⟩
  | .hbm, ⟨8, _⟩ => ⟨S10000x128, .f32⟩
  | .local _ .vmem, ⟨0, _⟩ => ⟨S10000x128, .f32⟩
  | .local _ .vmem, ⟨1, _⟩ => ⟨S624x10000, .f32⟩
  | .local _ .vmem, ⟨2, _⟩ => ⟨S624x10000, .f32⟩
  | .local _ .vmem, ⟨3, _⟩ => ⟨S128x24, .f32⟩
  | .local _ .vmem, ⟨4, _⟩ => ⟨S1x24, .f32⟩
  | .local _ .vmem, ⟨5, _⟩ => ⟨S24x128, .f32⟩
  | .local _ .vmem, ⟨6, _⟩ => ⟨S1x128, .f32⟩
  | .local _ .vmem, ⟨7, _⟩ => ⟨S624x128, .f32⟩
  | .local _ .vmem, ⟨8, _⟩ => ⟨S624x128, .f32⟩
  | .local _ .vmem, ⟨9, _⟩ => ⟨S10000x24, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S624x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S624x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S24_S1x24 : S24.ShapeCasts S1x24
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x24_S128x24_0_0 : ∀ a, (![0, 0] : Fin 2 → Nat) a + S128x24.size a ≤ S128x24.size a
  h_S128x24 : 0 < S128x24.numel
  inb_S10000x24_S10000x24_0_0 : ∀ a, (![0, 0] : Fin 2 → Nat) a + S10000x24.size a ≤ S10000x24.size a
  h_S10000x24 : 0 < S10000x24.numel
  shapeCasts_S10000x24_S10000x24 : S10000x24.ShapeCasts S10000x24
  inb_S624x10000_S624x10000_0_0 : ∀ a, (![0, 0] : Fin 2 → Nat) a + S624x10000.size a ≤ S624x10000.size a
  h_S624x10000 : 0 < S624x10000.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S624x24 : S1x24.Broadcasts S624x24
  inb_S24x128_S24x128_0_0 : ∀ a, (![0, 0] : Fin 2 → Nat) a + S24x128.size a ≤ S24x128.size a
  h_S24x128 : 0 < S24x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S624x128 : S1x128.Broadcasts S624x128
  inb_S624x128_S624x128_0_0 : ∀ a, (![0, 0] : Fin 2 → Nat) a + S624x128.size a ≤ S624x128.size a
  h_S624x128 : 0 < S624x128.numel
  dot_S10000x128_S128x24_S10000x24_1_0_0_1_n_n_wf : DotDims.WF S10000x128 S128x24 S10000x24 [1] [0] [0] [1] [] []
  dot_S624x10000_S10000x24_S624x24_1_0_0_1_n_n_wf : DotDims.WF S624x10000 S10000x24 S624x24 [1] [0] [0] [1] [] []
  dot_S624x24_S24x128_S624x128_1_0_0_1_n_n_wf : DotDims.WF S624x24 S24x128 S624x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S624x10000.size a < S10000x10000.size a
  hwx0_1 : ∀ i : grid0.Coords, EltTy.bits .f32 = 32 ∨ (Rect.unit (s := S10000x10000) (fun a => cc0_transform_1 i a * S624x10000.size a) (fun a => (Pipeline.Clip.of (cc0_transform_1 i a) (S624x10000.size a) (S10000x10000.size a)).extent (S624x10000.size a)) fun a => Pipeline.Clip.inb (Pipeline.Clip.ok_of (hstart0_1 i a))).WholeWords (EltTy.packing .f32)
  hwxs0_1 : ∀ i : grid0.Coords, EltTy.bits .f32 = 32 ∨ (Rect.unit (s := S624x10000) (fun _ => 0) (fun a => (Pipeline.Clip.of (cc0_transform_1 i a) (S624x10000.size a) (S10000x10000.size a)).extent (S624x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x24.size a ≤ S128x24.size a
  hwx0_2 : ∀ i : grid0.Coords, EltTy.bits .f32 = 32 ∨ (Rect.block (s := S128x24) S128x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x24.size a ≤ S1x24.size a
  hwx0_3 : ∀ i : grid0.Coords, EltTy.bits .f32 = 32 ∨ (Rect.block (s := S1x24) S1x24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x128.size a ≤ S24x128.size a
  hwx0_4 : ∀ i : grid0.Coords, EltTy.bits .f32 = 32 ∨ (Rect.block (s := S24x128) S24x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S624x128.size a < S10000x128.size a
  hwx0_6 : ∀ i : grid0.Coords, EltTy.bits .f32 = 32 ∨ (Rect.unit (s := S10000x128) (fun a => cc0_transform_6 i a * S624x128.size a) (fun a => (Pipeline.Clip.of (cc0_transform_6 i a) (S624x128.size a) (S10000x128.size a)).extent (S624x128.size a)) fun a => Pipeline.Clip.inb (Pipeline.Clip.ok_of (hstart0_6 i a))).WholeWords (EltTy.packing .f32)
  hwxs0_6 : ∀ i : grid0.Coords, EltTy.bits .f32 = 32 ∨ (Rect.unit (s := S624x128) (fun _ => 0) (fun a => (Pipeline.Clip.of (cc0_transform_6 i a) (S624x128.size a) (S10000x128.size a)).extent (S624x128.size a)) fun a => (Nat.zero_add _).trans_le (Pipeline.Clip.extent_le (Pipeline.Clip.ok_of (hstart0_6 i a)))).WholeWords (EltTy.packing .f32)

variable [Facts₀]

def dot_S10000x128_S128x24_S10000x24_1_0_0_1_n_n : DotDims S10000x128 S128x24 S10000x24 where
  lhsContracting := [1]
  rhsContracting := [0]
  lhsNonContracting := [0]
  rhsNonContracting := [1]
  lhsBatch := []
  rhsBatch := []
  wf := dot_S10000x128_S128x24_S10000x24_1_0_0_1_n_n_wf
def dot_S624x10000_S10000x24_S624x24_1_0_0_1_n_n : DotDims S624x10000 S10000x24 S624x24 where
  lhsContracting := [1]
  rhsContracting := [0]
  lhsNonContracting := [0]
  rhsNonContracting := [1]
  lhsBatch := []
  rhsBatch := []
  wf := dot_S624x10000_S10000x24_S624x24_1_0_0_1_n_n_wf
def dot_S624x24_S24x128_S624x128_1_0_0_1_n_n : DotDims S624x24 S24x128 S624x128 where
  lhsContracting := [1]
  rhsContracting := [0]
  lhsNonContracting := [0]
  rhsNonContracting := [1]
  lhsBatch := []
  rhsBatch := []
  wf := dot_S624x24_S24x128_S624x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S624x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S24x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v2) S624x128.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x24 : Shape := ⟨2, ![128, 24]⟩
abbrev S24 : Shape := ⟨1, ![24]⟩
abbrev S24x128 : Shape := ⟨2, ![24, 128]⟩
abbrev S128 : Shape := ⟨1, ![128]⟩
abbrev S10000x24 : Shape := ⟨2, ![10000, 24]⟩
abbrev S1x24 : Shape := ⟨2, ![1, 24]⟩
abbrev S_ : Shape := ⟨0, ![]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x24, .f32⟩
  | .hbm, ⟨3, _⟩ => ⟨S24, .f32⟩
  | .hbm, ⟨4, _⟩ => ⟨S24x128, .f32⟩
  | .hbm, ⟨5, _⟩ => ⟨S128, .f32⟩
  | .hbm, ⟨6, _⟩ => ⟨S10000x24, .f32⟩
  | .hbm, ⟨7, _⟩ => ⟨S10000x24, .f32⟩
  | .hbm, ⟨8, _⟩ => ⟨S1x24, .f32⟩
  | .hbm, ⟨9, _⟩ => ⟨S10000x24, .f32⟩
  | .hbm, ⟨10, _⟩ => ⟨S10000x24, .f32⟩
  | .hbm, ⟨11, _⟩ => ⟨S_, .f32⟩
  | .hbm, ⟨12, _⟩ => ⟨S_, .f32⟩
  | .hbm, ⟨13, _⟩ => ⟨S10000x24, .f32⟩
  | .hbm, ⟨14, _⟩ => ⟨S10000x24, .i1⟩
  | .hbm, ⟨15, _⟩ => ⟨S_, .f32⟩
  | .hbm, ⟨16, _⟩ => ⟨S10000x24, .f32⟩
  | .hbm, ⟨17, _⟩ => ⟨S10000x24, .f32⟩
  | .hbm, ⟨18, _⟩ => ⟨S10000x24, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]

class Facts₀ : Prop where
  bcast_S24_S1x24_1 : S24.BroadcastsInDim S1x24 (![1] : Fin 1 → Fin S1x24.rank)
  bcast_S1x24_S10000x24_0_1 : S1x24.BroadcastsInDim S10000x24 (![0, 1] : Fin 2 → Fin S10000x24.rank)
  bcast_S_S10000x24 : S_.BroadcastsInDim S10000x24 (![] : Fin 0 → Fin S10000x24.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x24_S10000x24_1_0_0_1_n_n_wf : DotDims.WF S10000x128 S128x24 S10000x24 [1] [0] [0] [1] [] []
  dot_S10000x10000_S10000x24_S10000x24_1_0_0_1_n_n_wf : DotDims.WF S10000x10000 S10000x24 S10000x24 [1] [0] [0] [1] [] []
  dot_S10000x24_S24x128_S10000x128_1_0_0_1_n_n_wf : DotDims.WF S10000x24 S24x128 S10000x128 [1] [0] [0] [1] [] []

variable [Facts₀]

def dot_S10000x128_S128x24_S10000x24_1_0_0_1_n_n : DotDims S10000x128 S128x24 S10000x24 where
  lhsContracting := [1]
  rhsContracting := [0]
  lhsNonContracting := [0]
  rhsNonContracting := [1]
  lhsBatch := []
  rhsBatch := []
  wf := dot_S10000x128_S128x24_S10000x24_1_0_0_1_n_n_wf
def dot_S10000x10000_S10000x24_S10000x24_1_0_0_1_n_n : DotDims S10000x10000 S10000x24 S10000x24 where
  lhsContracting := [1]
  rhsContracting := [0]
  lhsNonContracting := [0]
  rhsNonContracting := [1]
  lhsBatch := []
  rhsBatch := []
  wf := dot_S10000x10000_S10000x24_S10000x24_1_0_0_1_n_n_wf
def dot_S10000x24_S24x128_S10000x128_1_0_0_1_n_n : DotDims S10000x24 S24x128 S10000x128 where
  lhsContracting := [1]
  rhsContracting := [0]
  lhsNonContracting := [0]
  rhsNonContracting := [1]
  lhsBatch := []
  rhsBatch := []
  wf := dot_S10000x24_S24x128_S10000x128_1_0_0_1_n_n_wf

class Facts : Prop extends Facts₀ where

variable [Facts]
-- ==== Proof.KBody.lean ====
/-
  The kernel function's body, run once on any whole buffers, read at any float instance: two cases by the one
  branch it has.
-/
import proofs.«153029_g5626407157816_cont_9to1c4b_88_11_alg».proof.Proof.Gen.Kernel.Frame
import proofs.«153029_g5626407157816_cont_9to1c4b_88_11_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The body's one branch tests the grid coordinate against zero: it is taken at the first point only. -/
abbrev firstPt (i : grid0.Coords) : Prop :=
  (Scalar.cmpi .ne (Scalar.extui (Scalar.cmpi .eq (BitVec.ofNat 32 (i 0).val) 0#32)) 0#32) = 1#1

theorem firstPt_iff : ∀ t : Fin cfg0.N, firstPt (grid0.coords t) ↔ t.val = 0 :=
  (by decide +kernel : ∀ t : Fin grid0.N, firstPt (grid0.coords t) ↔ t.val = 0)

theorem zeros2 : (![0, 0] : Fin 2 → Nat) = fun _ => 0 := funext fun a => by fin_cases a <;> rfl

set_option maxHeartbeats 1000000 in
/-- At the first point the body fills the scratch with the support matrix `x · W1`, whatever it held, and then
    stores the output block computed from the adjacency block and that scratch; every input buffer is left as
    found. All loads and stores are of whole buffers. -/
theorem run_first (c : Dev nD) (i : grid0.Coords) (hc : firstPt i)
    (a1 : Memref sig .tc .vmem S10000x128 .f32) (h1 : a1.IsWhole) (a2 : Memref sig .tc .vmem S624x10000 .f32) (h2 : a2.IsWhole)
    (a3 : Memref sig .tc .vmem S128x24 .f32) (h3 : a3.IsWhole) (a4 : Memref sig .tc .vmem S1x24 .f32) (h4 : a4.IsWhole)
    (a5 : Memref sig .tc .vmem S24x128 .f32) (h5 : a5.IsWhole) (a6 : Memref sig .tc .vmem S1x128 .f32) (h6 : a6.IsWhole)
    (a7 : Memref sig .tc .vmem S624x128 .f32) (h7 : a7.IsWhole) (a8 : Memref sig .tc .vmem S10000x24 .f32) (h8 : a8.IsWhole)
    (X0 : Vec F S10000x128 .f32) (X1 : Vec F S624x10000 .f32) (X2 : Vec F S128x24 .f32) (X3 : Vec F S1x24 .f32)
    (X4 : Vec F S24x128 .f32) (X5 : Vec F S1x128 .f32) (E : Set ℕ) (K : PUnit → sProp 𝕄) :
    iprop(owns (c : Thread nD τ) a1 fullShare X0 ∗ owns (c : Thread nD τ) a2 fullShare X1 ∗ owns (c : Thread nD τ) a3 fullShare X2
        ∗ owns (c : Thread nD τ) a4 fullShare X3 ∗ owns (c : Thread nD τ) a5 fullShare X4 ∗ owns (c : Thread nD τ) a6 fullShare X5
        ∗ (∃ d, owns (c : Thread nD τ) a7 fullShare d) ∗ (∃ d, owns (c : Thread nD τ) a8 fullShare d)
        ∗ (iprop(owns (c : Thread nD τ) a1 fullShare X0 ∗ owns (c : Thread nD τ) a2 fullShare X1 ∗ owns (c : Thread nD τ) a3 fullShare X2
        ∗ owns (c : Thread nD τ) a4 fullShare X3 ∗ owns (c : Thread nD τ) a5 fullShare X4 ∗ owns (c : Thread nD τ) a6 fullShare X5
              ∗ owns (c : Thread nD τ) a7 fullShare (k0_pay2 X1 (k0_pay1 X0 X2) X3 X4 X5)
              ∗ owns (c : Thread nD τ) a8 fullShare (k0_pay1 X0 X2)) -∗ K ⟨⟩))
      ⊢ wp frame (wpE (defs₀ (F := F)) Variants.none c none) E (cc0__body i a1 h1 a2 h2 a3 h3 a4 h4 a5 h5 a6 h6 a7 h7 a8 h8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H7]
  · iexists _; isplitr
    swap; · iexact H7
    ipureintro
    sl_unfold_words
    rw [View.read_writes_eq_canon _ _ _ (fun y => ⟨_, List.mem_singleton_self _, View.mem_set_unit_zero zeros2 Facts₀.inb_S624x128_S624x128_0_0 y⟩),
      View.canon_unit_zero zeros2]
    simp only [View.readAt_eq_ld, h2.read_unread, h4.read_unread, h5.read_unread, h6.read_unread, h1.read_unread, h3.read_unread,
      View.ld_unit_zero (S := S624x10000) zeros2, View.ld_unit_zero (S := S1x24) zeros2, View.ld_unit_zero (S := S24x128) zeros2,
      View.ld_unit_zero (S := S1x128) zeros2, View.ld_unit_zero (S := S10000x128) zeros2, View.ld_unit_zero (S := S128x24) zeros2,
      View.readCov_unit_zero (S := S10000x24) _ zeros2]
  · iexists _; isplitr
    swap; · iexact H8
    ipureintro
    sl_unfold_words
    rw [View.read_writes_eq_canon _ _ _ (fun y => ⟨_, List.mem_singleton_self _, View.mem_set_unit_zero zeros2 Facts₀.inb_S10000x24_S10000x24_0_0 y⟩),
      View.canon_unit_zero zeros2]
    simp only [View.readAt_eq_ld, h1.read_unread, h3.read_unread,
      View.ld_unit_zero (S := S10000x128) zeros2, View.ld_unit_zero (S := S128x24) zeros2]

set_option maxHeartbeats 1000000 in
/-- At every later point the branch is skipped: the scratch keeps the contents `S` it was handed, and the output
    block is computed from the adjacency block and `S`. -/
theorem run_later (c : Dev nD) (i : grid0.Coords) (hc : ¬firstPt i)
    (a1 : Memref sig .tc .vmem S10000x128 .f32) (h1 : a1.IsWhole) (a2 : Memref sig .tc .vmem S624x10000 .f32) (h2 : a2.IsWhole)
    (a3 : Memref sig .tc .vmem S128x24 .f32) (h3 : a3.IsWhole) (a4 : Memref sig .tc .vmem S1x24 .f32) (h4 : a4.IsWhole)
    (a5 : Memref sig .tc .vmem S24x128 .f32) (h5 : a5.IsWhole) (a6 : Memref sig .tc .vmem S1x128 .f32) (h6 : a6.IsWhole)
    (a7 : Memref sig .tc .vmem S624x128 .f32) (h7 : a7.IsWhole) (a8 : Memref sig .tc .vmem S10000x24 .f32) (h8 : a8.IsWhole)
    (X0 : Vec F S10000x128 .f32) (X1 : Vec F S624x10000 .f32) (X2 : Vec F S128x24 .f32) (X3 : Vec F S1x24 .f32)
    (X4 : Vec F S24x128 .f32) (X5 : Vec F S1x128 .f32) (S : Vec F S10000x24 .f32) (E : Set ℕ) (K : PUnit → sProp 𝕄) :
    iprop(owns (c : Thread nD τ) a1 fullShare X0 ∗ owns (c : Thread nD τ) a2 fullShare X1 ∗ owns (c : Thread nD τ) a3 fullShare X2
        ∗ owns (c : Thread nD τ) a4 fullShare X3 ∗ owns (c : Thread nD τ) a5 fullShare X4 ∗ owns (c : Thread nD τ) a6 fullShare X5
        ∗ (∃ d, owns (c : Thread nD τ) a7 fullShare d) ∗ owns (c : Thread nD τ) a8 fullShare S
        ∗ (iprop(owns (c : Thread nD τ) a1 fullShare X0 ∗ owns (c : Thread nD τ) a2 fullShare X1 ∗ owns (c : Thread nD τ) a3 fullShare X2
        ∗ owns (c : Thread nD τ) a4 fullShare X3 ∗ owns (c : Thread nD τ) a5 fullShare X4 ∗ owns (c : Thread nD τ) a6 fullShare X5
              ∗ owns (c : Thread nD τ) a7 fullShare (k0_pay2 X1 S X3 X4 X5)
              ∗ owns (c : Thread nD τ) a8 fullShare S) -∗ K ⟨⟩))
      ⊢ wp frame (wpE (defs₀ (F := F)) Variants.none c none) E (cc0__body i a1 h1 a2 h2 a3 h3 a4 h4 a5 h5 a6 h6 a7 h7 a8 h8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  obtain rfl := h8.eq_unread hf8
  sl_exec (disch := exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H7]
  · iexists _; isplitr
    swap; · iexact H7
    ipureintro
    sl_unfold_words
    rw [View.read_writes_eq_canon _ _ _ (fun y => ⟨_, List.mem_singleton_self _, View.mem_set_unit_zero zeros2 Facts₀.inb_S624x128_S624x128_0_0 y⟩),
      View.canon_unit_zero zeros2]
    simp only [View.readAt_eq_ld, h2.read_unread, h4.read_unread, h5.read_unread, h6.read_unread, h8.read_unread,
      View.ld_unit_zero (S := S624x10000) zeros2, View.ld_unit_zero (S := S1x24) zeros2, View.ld_unit_zero (S := S24x128) zeros2,
      View.ld_unit_zero (S := S1x128) zeros2, View.ld_unit_zero (S := S10000x24) zeros2]
  · iexists _; isplitr; · ipureintro; exact h8.read_unread _
    iexact H8

end Cert.Kernel.Hand

end
-- ==== Proof.KFrame.lean ====
/-
  The frame of the kernel as printed, at any float instance: every weakly fair execution of @main terminates without
  a fault and leaves the six argument arrays as launched. Nothing is said of what the staging buffers, the scratch
  or the result array hold: the body's safety needs no fact about their contents.
-/
import proofs.«153029_g5626407157816_cont_9to1c4b_88_11_alg».proof.Proof.Gen.Kernel.Frame
import proofs.«153029_g5626407157816_cont_9to1c4b_88_11_alg».proof.Proof.Gen.Kernel.Skeleton
import proofs.«153029_g5626407157816_cont_9to1c4b_88_11_alg».proof.Proof.KBody
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core c. The arrays are named as the region finds them. Of what the body leaves in a window's
    current buffer nothing is said: the relation holds of any contents found and any contents left. Between points
    the body carries only what the launch hands it, the scratch at some contents and the generator's register at
    some state; it holds every array whole and owes nothing. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the launch hands the body besides the windows: the scratch whole at some contents, the register at some
    state. -/
theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]

/-- The body's obligation at every point, for any contents the seven current buffers hold. The body is handed the
    six input buffers, the output buffer and the scratch, all whole. At the first point it overwrites the scratch and
    the output buffer whatever they held; at a later point it reads the scratch, at whatever contents it has, and
    overwrites the output buffer. In both cases every input buffer comes back as it was handed over, so each of the
    seven is again whole at some contents, which is all the relation asks; the scratch is again whole at some
    contents and the register untouched, which is the invariant; and nothing is owed before or after. -/
theorem body_obligation (c : Dev nD) : (rdat m c).BodyObligation (defs₀ (F := F)) Variants.none () Set.univ := by
  intro t Y hY
  rw [bigSep_W0, bigSep_W0]
  show iprop(Pipeline.ΦA spec0 c ∗ (rdat m c).owesAt () t.castSucc
        ∗ owns (c : Thread nD τ) (win0_0.stage (cfg0.slots t 0)) fullShare (Y 0)
        ∗ owns (c : Thread nD τ) (win0_1.stage (cfg0.slots t 1)) fullShare (Y 1)
        ∗ owns (c : Thread nD τ) (win0_2.stage (cfg0.slots t 2)) fullShare (Y 2)
        ∗ owns (c : Thread nD τ) (win0_3.stage (cfg0.slots t 3)) fullShare (Y 3)
        ∗ owns (c : Thread nD τ) (win0_4.stage (cfg0.slots t 4)) fullShare (Y 4)
        ∗ owns (c : Thread nD τ) (win0_5.stage (cfg0.slots t 5)) fullShare (Y 5)
        ∗ owns (c : Thread nD τ) (win0_6.stage (cfg0.slots t 6)) fullShare (Y 6))
      ⊢ wp frame (wpE (defs₀ (F := F)) Variants.none c none) Set.univ (bodyAt0 t) (fun _ =>
          iprop(Pipeline.ΦA spec0 c ∗ (rdat m c).owesAt () t.castSucc
            ∗ (∃ X, ⌜True⌝ ∗ owns (c : Thread nD τ) (win0_0.stage (cfg0.slots t 0)) fullShare X)
            ∗ (∃ X, ⌜True⌝ ∗ owns (c : Thread nD τ) (win0_1.stage (cfg0.slots t 1)) fullShare X)
            ∗ (∃ X, ⌜True⌝ ∗ owns (c : Thread nD τ) (win0_2.stage (cfg0.slots t 2)) fullShare X)
            ∗ (∃ X, ⌜True⌝ ∗ owns (c : Thread nD τ) (win0_3.stage (cfg0.slots t 3)) fullShare X)
            ∗ (∃ X, ⌜True⌝ ∗ owns (c : Thread nD τ) (win0_4.stage (cfg0.slots t 4)) fullShare X)
            ∗ (∃ X, ⌜True⌝ ∗ owns (c : Thread nD τ) (win0_5.stage (cfg0.slots t 5)) fullShare X)
            ∗ (∃ X, ⌜True⌝ ∗ owns (c : Thread nD τ) (win0_6.stage (cfg0.slots t 6)) fullShare X)))
  rw [PhiA_eq]
  by_cases h : firstPt (grid0.coords t)
  · iintro ⟨⟨HS, Hg⟩, Ho, H0, H1, H2, H3, H4, H5, H6⟩
    iapply (run_first c (grid0.coords t) h _ _ _ _ _ _ _ _ _ _ _ _ _ _ _ _ (Y 0) (Y 1) (Y 2) (Y 3) (Y 4) (Y 5) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]
      · iexists _; iexact HS
      iexact Hg
    isplitl [Ho]; · iexact Ho
    isplitl [H0]
    · iexists _; isplitr; · ipureintro; trivial
      iexact H0
    isplitl [H1]
    · iexists _; isplitr; · ipureintro; trivial
      iexact H1
    isplitl [H2]
    · iexists _; isplitr; · ipureintro; trivial
      iexact H2
    isplitl [H3]
    · iexists _; isplitr; · ipureintro; trivial
      iexact H3
    isplitl [H4]
    · iexists _; isplitr; · ipureintro; trivial
      iexact H4
    isplitl [H5]
    · iexists _; isplitr; · ipureintro; trivial
      iexact H5
    iexists _; isplitr; · ipureintro; trivial
    iexact H6
  · iintro ⟨⟨⟨%S, HS⟩, Hg⟩, Ho, H0, H1, H2, H3, H4, H5, H6⟩
    iapply (run_later c (grid0.coords t) h _ _ _ _ _ _ _ _ _ _ _ _ _ _ _ _ (Y 0) (Y 1) (Y 2) (Y 3) (Y 4) (Y 5) S Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]
      · iexists _; iexact HS
      iexact Hg
    isplitl [Ho]; · iexact Ho
    isplitl [H0]
    · iexists _; isplitr; · ipureintro; trivial
      iexact H0
    isplitl [H1]
    · iexists _; isplitr; · ipureintro; trivial
      iexact H1
    isplitl [H2]
    · iexists _; isplitr; · ipureintro; trivial
      iexact H2
    isplitl [H3]
    · iexists _; isplitr; · ipureintro; trivial
      iexact H3
    isplitl [H4]
    · iexists _; isplitr; · ipureintro; trivial
      iexact H4
    isplitl [H5]
    · iexists _; isplitr; · ipureintro; trivial
      iexact H5
    iexists _; isplitr; · ipureintro; trivial
    iexact H6

/-- Every array is held whole. -/
theorem share_full (c : Dev nD) (w : Fin cfg0.W) : (rdat m c).share w = fullShare := by
  unfold RDat.share; split <;> rfl

set_option backward.isDefEq.respectTransparency.types false in
/-- Every weakly fair execution of @main terminates, every input array at the end as the region found it and every
    unscoped buffer no window stages as the region found it. -/
theorem run_main : θ_run defs (onTc (τ := τ) (main (F := F))) (s₀ m ρ) (RDat.FramePost cfg0 (rdat m) (V m)) :=
  Pipeline.RDat.θ_run_frame cfgs (0 : Fin 1) launch0 defs₀ Variants.none (rdat m) m ρ main
    (body_obligation m) (share_full m) (fun _ _ => rfl) (V m) (hmain m Variants.none) (fun _ _ => rfl) (fun _ _ => rfl)

theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  exact (θ_run defs _ _).mono (fun r (h : RDat.FramePost cfg0 (rdat m) (V m) r) c =>
    ⟨(RDat.FramePost.arr_in h c 0 rfl).trans (V_main_arg0 m c),
      (RDat.FramePost.arr_in h c 1 rfl).trans (V_main_arg1 m c),
      (RDat.FramePost.arr_in h c 2 rfl).trans (V_main_arg2 m c),
      ((h c).2 main_arg3 (Pipeline.mem_restRefs_of main_arg3 (by decide) (by decide))).trans (V_main_arg3 m c),
      (RDat.FramePost.arr_in h c 4 rfl).trans (V_main_arg4 m c),
      ((h c).2 main_arg5 (Pipeline.mem_restRefs_of main_arg5 (by decide) (by decide))).trans (V_main_arg5 m c)⟩)
    (run_main m ρ)

end Cert.Kernel.Hand

end
-- ==== Proof.KIBody.lean ====
/-
  The kernel function's body, run once on any whole buffers, read at any float instance: two cases by the one
  branch it has.
-/
import proofs.«153029_g5626407157816_cont_9to1c4b_88_11_alg».proof.Proof.Gen.KernelIdeal.Frame
import proofs.«153029_g5626407157816_cont_9to1c4b_88_11_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The body's one branch tests the grid coordinate against zero: it is taken at the first point only. -/
abbrev firstPt (i : grid0.Coords) : Prop :=
  (Scalar.cmpi .ne (Scalar.extui (Scalar.cmpi .eq (BitVec.ofNat 32 (i 0).val) 0#32)) 0#32) = 1#1

theorem firstPt_iff : ∀ t : Fin cfg0.N, firstPt (grid0.coords t) ↔ t.val = 0 :=
  (by decide +kernel : ∀ t : Fin grid0.N, firstPt (grid0.coords t) ↔ t.val = 0)

theorem zeros2 : (![0, 0] : Fin 2 → Nat) = fun _ => 0 := funext fun a => by fin_cases a <;> rfl

set_option maxHeartbeats 1000000 in
/-- At the first point the body fills the scratch with the support matrix `x · W1`, whatever it held, and then
    stores the output block computed from the adjacency block and that scratch; every input buffer is left as
    found. All loads and stores are of whole buffers. -/
theorem run_first (c : Dev nD) (i : grid0.Coords) (hc : firstPt i)
    (a1 : Memref sig .tc .vmem S10000x128 .f32) (h1 : a1.IsWhole) (a2 : Memref sig .tc .vmem S624x10000 .f32) (h2 : a2.IsWhole)
    (a3 : Memref sig .tc .vmem S128x24 .f32) (h3 : a3.IsWhole) (a4 : Memref sig .tc .vmem S1x24 .f32) (h4 : a4.IsWhole)
    (a5 : Memref sig .tc .vmem S24x128 .f32) (h5 : a5.IsWhole) (a6 : Memref sig .tc .vmem S1x128 .f32) (h6 : a6.IsWhole)
    (a7 : Memref sig .tc .vmem S624x128 .f32) (h7 : a7.IsWhole) (a8 : Memref sig .tc .vmem S10000x24 .f32) (h8 : a8.IsWhole)
    (X0 : Vec F S10000x128 .f32) (X1 : Vec F S624x10000 .f32) (X2 : Vec F S128x24 .f32) (X3 : Vec F S1x24 .f32)
    (X4 : Vec F S24x128 .f32) (X5 : Vec F S1x128 .f32) (E : Set ℕ) (K : PUnit → sProp 𝕄) :
    iprop(owns (c : Thread nD τ) a1 fullShare X0 ∗ owns (c : Thread nD τ) a2 fullShare X1 ∗ owns (c : Thread nD τ) a3 fullShare X2
        ∗ owns (c : Thread nD τ) a4 fullShare X3 ∗ owns (c : Thread nD τ) a5 fullShare X4 ∗ owns (c : Thread nD τ) a6 fullShare X5
        ∗ (∃ d, owns (c : Thread nD τ) a7 fullShare d) ∗ (∃ d, owns (c : Thread nD τ) a8 fullShare d)
        ∗ (iprop(owns (c : Thread nD τ) a1 fullShare X0 ∗ owns (c : Thread nD τ) a2 fullShare X1 ∗ owns (c : Thread nD τ) a3 fullShare X2
        ∗ owns (c : Thread nD τ) a4 fullShare X3 ∗ owns (c : Thread nD τ) a5 fullShare X4 ∗ owns (c : Thread nD τ) a6 fullShare X5
              ∗ owns (c : Thread nD τ) a7 fullShare (k0_pay2 X1 (k0_pay1 X0 X2) X3 X4 X5)
              ∗ owns (c : Thread nD τ) a8 fullShare (k0_pay1 X0 X2)) -∗ K ⟨⟩))
      ⊢ wp frame (wpE (defs₀ (F := F)) Variants.none c none) E (cc0__body i a1 h1 a2 h2 a3 h3 a4 h4 a5 h5 a6 h6 a7 h7 a8 h8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H7]
  · iexists _; isplitr
    swap; · iexact H7
    ipureintro
    sl_unfold_words
    rw [View.read_writes_eq_canon _ _ _ (fun y => ⟨_, List.mem_singleton_self _, View.mem_set_unit_zero zeros2 Facts₀.inb_S624x128_S624x128_0_0 y⟩),
      View.canon_unit_zero zeros2]
    simp only [View.readAt_eq_ld, h2.read_unread, h4.read_unread, h5.read_unread, h6.read_unread, h1.read_unread, h3.read_unread,
      View.ld_unit_zero (S := S624x10000) zeros2, View.ld_unit_zero (S := S1x24) zeros2, View.ld_unit_zero (S := S24x128) zeros2,
      View.ld_unit_zero (S := S1x128) zeros2, View.ld_unit_zero (S := S10000x128) zeros2, View.ld_unit_zero (S := S128x24) zeros2,
      View.readCov_unit_zero (S := S10000x24) _ zeros2]
  · iexists _; isplitr
    swap; · iexact H8
    ipureintro
    sl_unfold_words
    rw [View.read_writes_eq_canon _ _ _ (fun y => ⟨_, List.mem_singleton_self _, View.mem_set_unit_zero zeros2 Facts₀.inb_S10000x24_S10000x24_0_0 y⟩),
      View.canon_unit_zero zeros2]
    simp only [View.readAt_eq_ld, h1.read_unread, h3.read_unread,
      View.ld_unit_zero (S := S10000x128) zeros2, View.ld_unit_zero (S := S128x24) zeros2]

set_option maxHeartbeats 1000000 in
/-- At every later point the branch is skipped: the scratch keeps the contents `S` it was handed, and the output
    block is computed from the adjacency block and `S`. -/
theorem run_later (c : Dev nD) (i : grid0.Coords) (hc : ¬firstPt i)
    (a1 : Memref sig .tc .vmem S10000x128 .f32) (h1 : a1.IsWhole) (a2 : Memref sig .tc .vmem S624x10000 .f32) (h2 : a2.IsWhole)
    (a3 : Memref sig .tc .vmem S128x24 .f32) (h3 : a3.IsWhole) (a4 : Memref sig .tc .vmem S1x24 .f32) (h4 : a4.IsWhole)
    (a5 : Memref sig .tc .vmem S24x128 .f32) (h5 : a5.IsWhole) (a6 : Memref sig .tc .vmem S1x128 .f32) (h6 : a6.IsWhole)
    (a7 : Memref sig .tc .vmem S624x128 .f32) (h7 : a7.IsWhole) (a8 : Memref sig .tc .vmem S10000x24 .f32) (h8 : a8.IsWhole)
    (X0 : Vec F S10000x128 .f32) (X1 : Vec F S624x10000 .f32) (X2 : Vec F S128x24 .f32) (X3 : Vec F S1x24 .f32)
    (X4 : Vec F S24x128 .f32) (X5 : Vec F S1x128 .f32) (S : Vec F S10000x24 .f32) (E : Set ℕ) (K : PUnit → sProp 𝕄) :
    iprop(owns (c : Thread nD τ) a1 fullShare X0 ∗ owns (c : Thread nD τ) a2 fullShare X1 ∗ owns (c : Thread nD τ) a3 fullShare X2
        ∗ owns (c : Thread nD τ) a4 fullShare X3 ∗ owns (c : Thread nD τ) a5 fullShare X4 ∗ owns (c : Thread nD τ) a6 fullShare X5
        ∗ (∃ d, owns (c : Thread nD τ) a7 fullShare d) ∗ owns (c : Thread nD τ) a8 fullShare S
        ∗ (iprop(owns (c : Thread nD τ) a1 fullShare X0 ∗ owns (c : Thread nD τ) a2 fullShare X1 ∗ owns (c : Thread nD τ) a3 fullShare X2
        ∗ owns (c : Thread nD τ) a4 fullShare X3 ∗ owns (c : Thread nD τ) a5 fullShare X4 ∗ owns (c : Thread nD τ) a6 fullShare X5
              ∗ owns (c : Thread nD τ) a7 fullShare (k0_pay2 X1 S X3 X4 X5)
              ∗ owns (c : Thread nD τ) a8 fullShare S) -∗ K ⟨⟩))
      ⊢ wp frame (wpE (defs₀ (F := F)) Variants.none c none) E (cc0__body i a1 h1 a2 h2 a3 h3 a4 h4 a5 h5 a6 h6 a7 h7 a8 h8) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  obtain rfl := h8.eq_unread hf8
  sl_exec (disch := exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H7]
  · iexists _; isplitr
    swap; · iexact H7
    ipureintro
    sl_unfold_words
    rw [View.read_writes_eq_canon _ _ _ (fun y => ⟨_, List.mem_singleton_self _, View.mem_set_unit_zero zeros2 Facts₀.inb_S624x128_S624x128_0_0 y⟩),
      View.canon_unit_zero zeros2]
    simp only [View.readAt_eq_ld, h2.read_unread, h4.read_unread, h5.read_unread, h6.read_unread, h8.read_unread,
      View.ld_unit_zero (S := S624x10000) zeros2, View.ld_unit_zero (S := S1x24) zeros2, View.ld_unit_zero (S := S24x128) zeros2,
      View.ld_unit_zero (S := S1x128) zeros2, View.ld_unit_zero (S := S10000x24) zeros2]
  · iexists _; isplitr; · ipureintro; exact h8.read_unread _
    iexact H8

end Cert.KernelIdeal.Hand

end
-- ==== Proof.KIDat.lean ====
/-
  The idealized kernel's proof data: what every staging buffer holds after the body at each grid point, and the
  invariant that carries the support matrix in the scratch from the first point on.
-/
import proofs.«153029_g5626407157816_cont_9to1c4b_88_11_alg».proof.Proof.Gen.KernelIdeal.Frame
import proofs.«153029_g5626407157816_cont_9to1c4b_88_11_alg».proof.Proof.Gen.KernelIdeal.Skeleton
import proofs.«153029_g5626407157816_cont_9to1c4b_88_11_alg».proof.Proof.KIBody
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by decide⟩

/-- The adjacency window's staging buffer after the fetch at point `t`, as the proof data names it: the block's rows
    inside the array, and zero on the rows past the array's end (rows no obligation states: the window is loose). -/
def abuf (c : Dev nD) (t : Fin cfg0.N) : Vec F S624x10000 .f32 :=
  win0_1.fill (grid0.coords t) (fun _ => Scalar.ofBits .f32 0#32) (iblk m c 1 t)

/-- The support matrix `x · W1`, from the two blocks the first point finds. -/
def sup (c : Dev nD) : Vec F S10000x24 .f32 := k0_pay1 (iblk m c 0 t0) (iblk m c 2 t0)

/-- The output block the body stores at point `t`. -/
def oblk (c : Dev nD) (t : Fin cfg0.N) : Vec F S624x128 .f32 :=
  k0_pay2 (abuf m c t) (sup m c) (iblk m c 3 t) (iblk m c 4 t) (iblk m c 5 t)

/-- The invariant before position `n`: before the first point the scratch holds anything; afterwards the support
    matrix. -/
def PhiS (c : Dev nD) : ℕ → sProp 𝕄
  | 0 => Pipeline.ΦA spec0 c
  | _ + 1 => iprop(owns (c : Thread nD τ) (Memref.whole cc0_scratch0) fullShare (sup m c) ∗ (∃ r, prngReg c r))

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]

/-- The proof data on core `c`: the arrays as the region finds them; after the body each input's buffer at its block
    (the adjacency's filled out with zeros), the output's at `oblk`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => abuf m c t
    | ⟨2, _⟩ => iblk m c 2 t
    | ⟨3, _⟩ => iblk m c 3 t
    | ⟨4, _⟩ => iblk m c 4 t
    | ⟨5, _⟩ => iblk m c 5 t
    | ⟨6, _⟩ => oblk m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = abuf m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = oblk m c t := by dsimp only [dats]

/-- Each uncut input's buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The adjacency window is fetched at every point: its buffer holds the block's rows inside the array and `d` on
    the rest. -/
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

theorem fetch_6 : ∀ t : Fin cfg0.N, (cfg0.win 6).fetch t = false :=
  (by decide +kernel : ∀ t : Fin grid0.N, win0_6.fetch t = false)

/-- The output window is written back at every point: its buffer comes to the body at contents nothing names. -/
theorem before_6 (c : Dev nD) (t : Fin cfg0.N) (d) : (dats m 0 c).before 6 t d = d := by
  unfold Dat.before
  rw [if_neg (by rw [fetch_6 t]; exact Bool.false_ne_true)]
  by_cases hz : t.val = 0
  · rw [if_pos hz]
  · rw [if_neg hz]; exact if_pos (flush0_6 _)

end Cert.KernelIdeal.Hand

end
-- ==== Proof.Spec.lean ====
/-
  The function both programs compute, index by index over the extended reals.

  With `sup = x · W1` (a 10000 × 24 matrix of 128-term sums), row `i` of the result is
    tanh ( lrelu ( adj[i, :] · sup + b1 ) · W2 + b2 ),
  `lrelu h = h` for `0 ≤ h` and `slope · h` otherwise, `slope` the f32 word nearest 0.01 that both
  programs carry. One output row depends on ONE row of `adj` only: `rowOut` takes that row, so a
  block of rows of the result is determined by the same block of rows of `adj`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The negative slope as both programs spell it: the value of the f32 word `0x3C23D70A`. -/
abbrev slope : EReal := Ideal.ofBits .f32 0x3C23D70A#32

/-- Leaky relu, in the form that tests `0 ≤ h`. -/
def lrelu (h : EReal) : EReal := if 0 ≤ h then h else slope * h

/-- Testing `0 < h` instead gives the same function: the two tests differ only at `h = 0`, where both
    branches are `0` (`slope · 0 = 0`). -/
theorem lrelu_of_gt (h : EReal) : (if 0 < h then h else slope * h) = lrelu h := by
  unfold lrelu
  rcases lt_trichotomy 0 h with hp | rfl | hn
  · rw [if_pos hp, if_pos hp.le]
  · rw [if_neg (lt_irrefl _), if_pos le_rfl, mul_zero]
  · rw [if_neg (not_lt.2 hn.le), if_neg (not_le.2 hn)]

/-- Entry `(l, k)` of `x · W1`. -/
def supAt (x : (⟨2, ![10000, 128]⟩ : Shape).Idx → EReal) (w1 : (⟨2, ![128, 24]⟩ : Shape).Idx → EReal)
    (l : Fin 10000) (k : Fin 24) : EReal :=
  ∑ a : Fin 128, x (ix2 l a) * w1 (ix2 a k)

/-- Entry `j` of one output row, from the matching row `arow` of `adj`. -/
def rowOut (arow : Fin 10000 → EReal) (sup : Fin 10000 → Fin 24 → EReal) (b1 : Fin 24 → EReal)
    (w2 : (⟨2, ![24, 128]⟩ : Shape).Idx → EReal) (b2 : Fin 128 → EReal) (j : Fin 128) : EReal :=
  Ideal.tanh ((∑ k : Fin 24, lrelu ((∑ l : Fin 10000, arow l * sup l k) + b1 k) * w2 (ix2 k j)) + b2 j)

/-- The whole result: entry `i = (row, column)`. -/
def G (x : (⟨2, ![10000, 128]⟩ : Shape).Idx → EReal) (adj : (⟨2, ![10000, 10000]⟩ : Shape).Idx → EReal)
    (w1 : (⟨2, ![128, 24]⟩ : Shape).Idx → EReal) (b1 : (⟨1, ![24]⟩ : Shape).Idx → EReal)
    (w2 : (⟨2, ![24, 128]⟩ : Shape).Idx → EReal) (b2 : (⟨1, ![128]⟩ : Shape).Idx → EReal) :
    (⟨2, ![10000, 128]⟩ : Shape).Idx → EReal := fun i =>
  rowOut (fun l => adj (ix2 (i 0) l)) (supAt x w1) (fun k => b1 (ix1 k)) w2 (fun j => b2 (ix1 j)) (i 1)

end Cert.Spec

end
-- ==== Proof.KIPay.lean ====
/-
  The idealized kernel's two payloads read at an index: the support matrix's entry as a 128-term sum, and one
  entry of an output row from the matching row of the adjacency block.

  Each of the three matrix products accumulates into a zero splat, so at an index it is the plain sum over the
  contracted coordinate. The bias rows are one-row arrays laid along every row; the activation compares each entry
  with zero and keeps it or scales it by the slope, which is the leaky relu; the last step is the hyperbolic tangent.
-/
import proofs.«153029_g5626407157816_cont_9to1c4b_88_11_alg».proof.Proof.Gen.KernelIdeal.Skeleton
import proofs.«153029_g5626407157816_cont_9to1c4b_88_11_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.KernelIdeal.Hand

open Idealize.ShloMosaic Idealize.ShloMosaic.ValueIdx Cert.KernelIdeal Cert.KernelIdeal.Gen

/-! ## A plain matrix product into the zero splat -/

/-- An `m × k` by `k × n` product accumulated into zero, read at `(a, b)`: row `a` of the left factor against
    column `b` of the right one, summed over the contracted coordinate. -/
theorem mm_apply {m k n : Nat}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    matmul (⟨[1], [0], [0], [1], [], [], w⟩ : DotDims _ _ _) none A B (constant _ .f32 0x00000000#32) (ix2 a b)
      = ∑ c : Fin k, A (ix2 a c) * B (ix2 c b) :=
  (congrFun (matmul_zero_eq_dotGeneral _ none A B) (ix2 a b)).trans
    (StackMember.dotGeneral_plain_apply none A B a b)

/-! ## The support payload -/

/-- The support payload at `(l, k)`: row `l` of `x` against column `k` of `W1`. -/
theorem pay1_apply (v23 : Vec Ideal S10000x128 .f32) (v24 : Vec Ideal S128x24 .f32) (l : Fin 10000) (k : Fin 24) :
    k0_pay1 (F := Ideal) v23 v24 (ix2 l k) = Cert.Spec.supAt v23 v24 l k := by
  unfold k0_pay1
  refine (congrFun (shapeCast_self _ _) _).trans ?_
  exact mm_apply _ v23 v24 l k

/-! ## The output payload, layer by layer -/

/-- The hidden layer before its activation: the adjacency block times the support matrix, plus the bias row laid
    along every row. -/
def pre (v3 : FVec Ideal S624x10000 .f32) (v4 : FVec Ideal S10000x24 .f32) (v6 : FVec Ideal S1x24 .f32) :
    FVec Ideal S624x24 .f32 :=
  addf (matmul dot_S624x10000_S10000x24_S624x24_1_0_0_1_n_n none v3 v4 (constant S624x24 .f32 0x00000000#32))
    (broadcastTo S624x24 (shapeCast S1x24 v6 shapeCasts_S1x24_S1x24) broadcasts_S1x24_S624x24)

/-- The hidden layer: where an entry is positive it is kept, elsewhere it is scaled by the slope. -/
def hid (h : FVec Ideal S624x24 .f32) : FVec Ideal S624x24 .f32 :=
  select (cmpf .ogt h (broadcast S624x24 (Scalar.ofBits (F := Ideal) .f32 0x00000000#32))) h
    (mulf (broadcast S624x24 (Scalar.ofBits (F := Ideal) .f32 0x3C23D70A#32)) h)

/-- The payload is the hyperbolic tangent of the hidden layer times `W2` plus the second bias row. -/
theorem pay2_eq (v3 : Vec Ideal S624x10000 .f32) (v4 : Vec Ideal S10000x24 .f32) (v6 : Vec Ideal S1x24 .f32)
    (v15 : Vec Ideal S24x128 .f32) (v17 : Vec Ideal S1x128 .f32) :
    k0_pay2 (F := Ideal) v3 v4 v6 v15 v17
      = tanh (addf
          (matmul (φ₁ := .f32) (φ₂ := .f32) dot_S624x24_S24x128_S624x128_1_0_0_1_n_n none (hid (pre v3 v4 v6)) v15
            (constant S624x128 .f32 0x00000000#32))
          (broadcastTo S624x128 (shapeCast S1x128 v17 shapeCasts_S1x128_S1x128) broadcasts_S1x128_S624x128)) := rfl

/-- The pre-activation at `(r, k)`: row `r` of the adjacency block against column `k` of the support matrix, plus
    the bias at `k`. -/
theorem pre_apply (v3 : FVec Ideal S624x10000 .f32) (v4 : FVec Ideal S10000x24 .f32) (v6 : FVec Ideal S1x24 .f32)
    (r : Fin 624) (k : Fin 24) :
    pre v3 v4 v6 (ix2 r k) = (∑ l : Fin 10000, v3 (ix2 r l) * v4 (ix2 l k)) + v6 (ix2 (0 : Fin 1) k) := by
  unfold pre
  rw [addf_apply]
  refine congrArg₂ (· + ·) (mm_apply _ v3 v4 r k) ?_
  refine (broadcastTo_1b_ab_apply _ _ r k).trans ?_
  exact congrFun (shapeCast_self v6 _) _

/-- The activation at an index is the leaky relu of the entry: the comparison `0 < h` picks the entry itself, its
    failure the entry times the slope. -/
theorem hid_apply (h : FVec Ideal S624x24 .f32) (i : S624x24.Idx) : hid h i = Cert.Spec.lrelu (h i) := by
  rw [← Cert.Spec.lrelu_of_gt]
  show Scalar.select (Ideal.cmp .ogt (h i) (Ideal.ofBits .f32 0x00000000#32)) (h i) (Cert.Spec.slope * h i) = _
  rw [Ideal.ofBits_zero_f32]
  unfold Scalar.select Ideal.cmp
  by_cases hp : 0 < h i
  · rw [if_pos hp, if_pos (by simp [hp])]
  · rw [if_neg hp, if_neg (by simp [hp])]

/-- The output payload at `(r, j)`: it reads row `r` of the adjacency block and no other row. -/
theorem pay2_apply (v3 : Vec Ideal S624x10000 .f32) (v4 : Vec Ideal S10000x24 .f32) (v6 : Vec Ideal S1x24 .f32)
    (v15 : Vec Ideal S24x128 .f32) (v17 : Vec Ideal S1x128 .f32) (r : Fin 624) (j : Fin 128) :
    k0_pay2 (F := Ideal) v3 v4 v6 v15 v17 (ix2 r j)
      = Cert.Spec.rowOut (fun l => v3 (ix2 r l)) (fun l k => v4 (ix2 l k)) (fun k => v6 (ix2 (0 : Fin 1) k)) v15
          (fun j' => v17 (ix2 (0 : Fin 1) j')) j := by
  rw [pay2_eq]
  unfold Cert.Spec.rowOut
  show Ideal.tanh _ = _
  refine congrArg Ideal.tanh ?_
  rw [addf_apply]
  refine congrArg₂ (· + ·) ?_ ?_
  · refine (mm_apply _ (hid (pre v3 v4 v6)) v15 r j).trans ?_
    refine Finset.sum_congr rfl fun k _ => ?_
    rw [hid_apply, pre_apply]
  · refine (broadcastTo_1b_ab_apply _ _ r j).trans ?_
    exact congrFun (shapeCast_self v17 _) _

end Cert.KernelIdeal.Hand

end
-- ==== Proof.KILocal.lean ====
/-
  An output row of the idealized kernel's block depends on the matching row of the adjacency block only: two
  adjacency buffers that agree on the rows inside the array give output blocks that agree on those rows.
-/
import proofs.«153029_g5626407157816_cont_9to1c4b_88_11_alg».proof.Proof.Gen.KernelIdeal.Frame
import proofs.«153029_g5626407157816_cont_9to1c4b_88_11_alg».proof.Proof.KIPay

set_option maxRecDepth 16384

noncomputable section

namespace Cert.KernelIdeal.Hand

open Idealize.ShloMosaic Idealize.ShloMosaic.ValueIdx Cert.KernelIdeal Cert.KernelIdeal.Gen

/-- The adjacency window and the result window are cut alike on the row axis: both index maps send the grid
    coordinate to the same block of 624 rows of an array of 10000. -/
theorem xsize_rows (i : grid0.Coords) : win0_1.xsize i 0 = win0_6.xsize i 0 := rfl

/-- The adjacency window is not cut on the column axis: its one block of 10000 columns is the array's. -/
theorem xsize_cols (i : grid0.Coords) : win0_1.xsize i 1 = 10000 := rfl

/-- Contents of a window's block that agree on the part a transfer moves agree at every block index inside that part. -/
theorem eq_of_cut_eq {G : Pipeline.Grid} (w : Pipeline.Window sig G) {α : Type} (i : G.Coords) {X Y : w.block.Idx → α}
    (h : w.cut i X = w.cut i Y) (b : w.block.Idx) (hb : ∀ a, (b a).val < w.xsize i a) : X b = Y b :=
  congrFun h (fun a => ⟨(b a).val, hb a⟩)

/-- Two adjacency buffers that agree on the moved part agree on every row `r` inside it, at every column. -/
theorem row_of_cut (i : grid0.Coords) (A A' : Vec Ideal S624x10000 .f32) (h : win0_1.cut i A = win0_1.cut i A')
    (r : Fin 624) (hr : r.val < win0_1.xsize i 0) (l : Fin 10000) : A (ix2 r l) = A' (ix2 r l) := by
  have hl : l.val < win0_1.xsize i 1 := by rw [xsize_cols]; exact l.isLt
  refine eq_of_cut_eq win0_1 i h (ix2 r l) ?_
  intro a
  match a with
  | ⟨0, _⟩ => exact hr
  | ⟨1, _⟩ => exact hl

/-- At one index of the block, the output payload is the same for two adjacency buffers whose rows at that index's
    row coordinate are the same. -/
theorem pay2_congr_row (A A' : Vec Ideal S624x10000 .f32) (S : Vec Ideal S10000x24 .f32)
    (b1 : Vec Ideal S1x24 .f32) (W2 : Vec Ideal S24x128 .f32) (b2 : Vec Ideal S1x128 .f32) (b : S624x128.Idx)
    (hrow : ∀ l : Fin 10000, A (ix2 (b 0) l) = A' (ix2 (b 0) l)) :
    k0_pay2 (F := Ideal) A S b1 W2 b2 b = k0_pay2 (F := Ideal) A' S b1 W2 b2 b := by
  obtain ⟨r, q, rfl⟩ : ∃ (r : Fin 624) (q : Fin 128), b = ix2 r q := ⟨b 0, b 1, eq_ix2 b⟩
  rw [pay2_apply, pay2_apply]
  exact congrArg (fun row => Cert.Spec.rowOut row (fun l k => S (ix2 l k)) (fun k => b1 (ix2 (0 : Fin 1) k)) W2
    (fun j' => b2 (ix2 (0 : Fin 1) j')) q) (funext hrow)

/-- Output blocks of two adjacency buffers that agree on the rows inside the array agree on those rows. -/
theorem pay2_rows (i : grid0.Coords) (A A' : Vec Ideal S624x10000 .f32) (S : Vec Ideal S10000x24 .f32)
    (b1 : Vec Ideal S1x24 .f32) (W2 : Vec Ideal S24x128 .f32) (b2 : Vec Ideal S1x128 .f32)
    (h : win0_1.cut i A = win0_1.cut i A') :
    win0_6.cut i (k0_pay2 (F := Ideal) A S b1 W2 b2) = win0_6.cut i (k0_pay2 (F := Ideal) A' S b1 W2 b2) := by
  funext j
  have hr : (j 0).val < win0_1.xsize i 0 := by rw [xsize_rows]; exact (j 0).isLt
  exact pay2_congr_row A A' S b1 W2 b2 (win0_6.xinj i j) fun l => row_of_cut i A A' h (win0_6.xinj i j 0) hr l

end Cert.KernelIdeal.Hand

end
-- ==== Proof.KIRun.lean ====
/-
  The idealized kernel's run: the body obligation at every grid point, and the run of @main to the library's frame
  post, which names the result array after the last write-back.
-/
import proofs.«153029_g5626407157816_cont_9to1c4b_88_11_alg».proof.Proof.Gen.KernelIdeal.Frame
import proofs.«153029_g5626407157816_cont_9to1c4b_88_11_alg».proof.Proof.Gen.KernelIdeal.Skeleton
import proofs.«153029_g5626407157816_cont_9to1c4b_88_11_alg».proof.Proof.KIDat
import proofs.«153029_g5626407157816_cont_9to1c4b_88_11_alg».proof.Proof.KILocal
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

set_option maxHeartbeats 2000000 in
/-- The body obligation, every window loose or not as the configuration says. At the first point the invariant hands the
    scratch over at any contents and takes it back at the support matrix; afterwards it hands it over and takes it back
    at the support matrix. The adjacency buffer comes fetched: its block on the rows inside the array, anything on
    the rest; what the body then stores agrees with `oblk` on the rows inside the array, which is all the output's
    obligation states (an output row reads the matching adjacency row only). -/
theorem body_obligation (c : Dev nD) :
    BodyObligationLoose (dats (F := Ideal) m 0 c) (defs₀ (F := Ideal)) Variants.none () Set.univ := fun t => by
  rw [bigSep_W0, bigSep_W0]
  simp only
  rw [show (dats m 0 c).owesAt () t.succ = (dats m 0 c).owesAt () t.castSucc from rfl]
  simp only [before_0, before_1, before_2, before_3, before_4, before_5, before_6, after_0, after_1, after_2, after_3, after_4,
    after_5, after_6]
  show _ ⊢ wp frame (wpE (defs₀ (F := Ideal)) Variants.none c none) Set.univ (bodyAt0 t) _
  unfold bodyAt0
  by_cases hz : t.val = 0
  · have hc : firstPt (grid0.coords t) := (firstPt_iff t).mpr hz
    obtain rfl : t = t0 := Fin.ext hz
    rw [show (dats m 0 c).Φ (Fin.castSucc t0) = Pipeline.ΦA spec0 c from rfl, PhiA_eq,
      show (dats m 0 c).Φ t0.succ
        = iprop(owns (c : Thread nD τ) (Memref.whole cc0_scratch0) fullShare (sup m c) ∗ (∃ r, prngReg c r)) from rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_first (F := Ideal) c (grid0.coords t0) hc (win0_0.stage (cfg0.slots t0 0)) (hstage0_0 ((cfg0.slots t0 0).cast nbuf0_0)) (win0_1.stage (cfg0.slots t0 1)) (hstage0_1 ((cfg0.slots t0 1).cast nbuf0_1)) (win0_2.stage (cfg0.slots t0 2)) (hstage0_2 ((cfg0.slots t0 2).cast nbuf0_2)) (win0_3.stage (cfg0.slots t0 3)) (hstage0_3 ((cfg0.slots t0 3).cast nbuf0_3)) (win0_4.stage (cfg0.slots t0 4)) (hstage0_4 ((cfg0.slots t0 4).cast nbuf0_4)) (win0_5.stage (cfg0.slots t0 5)) (hstage0_5 ((cfg0.slots t0 5).cast nbuf0_5)) (win0_6.stage (cfg0.slots t0 6)) (hstage0_6 ((cfg0.slots t0 6).cast nbuf0_6)) (Memref.whole cc0_scratch0) (Memref.isWhole_whole _)
      (iblk m c 0 t0) (win0_1.fill (grid0.coords t0) d1 (iblk m c 1 t0)) (iblk m c 2 t0) (iblk m c 3 t0) (iblk m c 4 t0) (iblk m c 5 t0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]
    · iexists d1
      rw [show (win0 1).cut (grid0.coords t0) (abuf m c t0) = iblk m c 1 t0 from Window.cut_fill _ _ _ _]
      iexact H1
    isplitl [H2]; · iexact H2
    isplitl [H3]; · iexact H3
    isplitl [H4]; · iexact H4
    isplitl [H5]; · iexact H5
    have hcut : win0_1.cut (grid0.coords t0) (win0_1.fill (grid0.coords t0) d1 (iblk m c 1 t0))
        = win0_1.cut (grid0.coords t0) (abuf m c t0) :=
      (Window.cut_fill win0_1 _ d1 (iblk m c 1 t0)).trans
        (show iblk m c 1 t0 = win0_1.cut (grid0.coords t0) (abuf m c t0) from (Window.cut_fill win0_1 _ _ _).symm)
    have h6 : (win0 6).fill (grid0.coords t0)
          (k0_pay2 (F := Ideal) (win0_1.fill (grid0.coords t0) d1 (iblk m c 1 t0)) (sup m c) (iblk m c 3 t0) (iblk m c 4 t0) (iblk m c 5 t0))
          ((win0 6).cut (grid0.coords t0) (oblk m c t0))
        = k0_pay2 (F := Ideal) (win0_1.fill (grid0.coords t0) d1 (iblk m c 1 t0)) (sup m c) (iblk m c 3 t0) (iblk m c 4 t0) (iblk m c 5 t0) :=
      Window.fill_congr_cut (win0 6) (grid0.coords t0)
        (pay2_rows (grid0.coords t0) (win0_1.fill (grid0.coords t0) d1 (iblk m c 1 t0)) (abuf m c t0) (sup m c)
          (iblk m c 3 t0) (iblk m c 4 t0) (iblk m c 5 t0) hcut)
    iexists (k0_pay2 (F := Ideal) (win0_1.fill (grid0.coords t0) d1 (iblk m c 1 t0)) (sup m c) (iblk m c 3 t0) (iblk m c 4 t0) (iblk m c 5 t0))
    rw [h6]
    iexact H6
  · have hc : ¬firstPt (grid0.coords t) := fun h => hz ((firstPt_iff t).mp h)
    obtain ⟨n, hn⟩ : ∃ n, t.val = n + 1 := Nat.exists_eq_succ_of_ne_zero hz
    rw [show (dats m 0 c).Φ t.castSucc = PhiS m c t.val from rfl, hn,
      show PhiS m c (n + 1)
        = iprop(owns (c : Thread nD τ) (Memref.whole cc0_scratch0) fullShare (sup m c) ∗ (∃ r, prngReg c r)) from rfl,
      show (dats m 0 c).Φ t.succ
        = iprop(owns (c : Thread nD τ) (Memref.whole cc0_scratch0) fullShare (sup m c) ∗ (∃ r, prngReg c r)) from rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_later (F := Ideal) c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _)
      (iblk m c 0 t) (win0_1.fill (grid0.coords t) d1 (iblk m c 1 t)) (iblk m c 2 t) (iblk m c 3 t) (iblk m c 4 t) (iblk m c 5 t) (sup m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]
    · iexists d1
      rw [show (win0 1).cut (grid0.coords t) (abuf m c t) = iblk m c 1 t from Window.cut_fill _ _ _ _]
      iexact H1
    isplitl [H2]; · iexact H2
    isplitl [H3]; · iexact H3
    isplitl [H4]; · iexact H4
    isplitl [H5]; · iexact H5
    have hcut : win0_1.cut (grid0.coords t) (win0_1.fill (grid0.coords t) d1 (iblk m c 1 t))
        = win0_1.cut (grid0.coords t) (abuf m c t) :=
      (Window.cut_fill win0_1 _ d1 (iblk m c 1 t)).trans
        (show iblk m c 1 t = win0_1.cut (grid0.coords t) (abuf m c t) from (Window.cut_fill win0_1 _ _ _).symm)
    have h6 : (win0 6).fill (grid0.coords t)
          (k0_pay2 (F := Ideal) (win0_1.fill (grid0.coords t) d1 (iblk m c 1 t)) (sup m c) (iblk m c 3 t) (iblk m c 4 t) (iblk m c 5 t))
          ((win0 6).cut (grid0.coords t) (oblk m c t))
        = k0_pay2 (F := Ideal) (win0_1.fill (grid0.coords t) d1 (iblk m c 1 t)) (sup m c) (iblk m c 3 t) (iblk m c 4 t) (iblk m c 5 t) :=
      Window.fill_congr_cut (win0 6) (grid0.coords t)
        (pay2_rows (grid0.coords t) (win0_1.fill (grid0.coords t) d1 (iblk m c 1 t)) (abuf m c t) (sup m c)
          (iblk m c 3 t) (iblk m c 4 t) (iblk m c 5 t) hcut)
    iexists (k0_pay2 (F := Ideal) (win0_1.fill (grid0.coords t) d1 (iblk m c 1 t)) (sup m c) (iblk m c 3 t) (iblk m c 4 t) (iblk m c 5 t))
    rw [h6]
    iexact H6

/-- What the launch hands the region is the invariant before the first point. -/
theorem hin (c : Dev nD) : Pipeline.ΦA spec0 c ⊢ (dats (F := Ideal) m 0 c).Φ 0 := by
  rw [show (dats (F := Ideal) m 0 c).Φ 0 = Pipeline.ΦA spec0 c from rfl]

/-- After the last point the scratch's contents are forgotten. -/
theorem hout (c : Dev nD) : (dats (F := Ideal) m 0 c).Φ (Fin.last cfg0.N) ⊢ Pipeline.ΦA spec0 c := by
  rw [show (dats (F := Ideal) m 0 c).Φ (Fin.last cfg0.N)
      = iprop(owns (c : Thread nD τ) (Memref.whole cc0_scratch0) fullShare (sup m c) ∗ (∃ r, prngReg c r)) from rfl, PhiA_eq]
  iintro ⟨HS, Hg⟩
  isplitl [HS]
  · iexists _; iexact HS
  iexact Hg

set_option backward.isDefEq.respectTransparency.types false in
/-- From any memory with zero counters every weakly fair execution of @main terminates, and every final state has each
    array of the pipeline at what the proof data computes and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

end Cert.KernelIdeal.Hand

end
-- ==== Proof.KIFlush.lean ====
/-
  What one grid point writes back: the rows inside the array of the block it stored are the same rows of the
  specification's whole-array result.
-/
import proofs.«153029_g5626407157816_cont_9to1c4b_88_11_alg».proof.Proof.KIDat
import proofs.«153029_g5626407157816_cont_9to1c4b_88_11_alg».proof.Proof.KIPay
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The specification's result of core `c`'s argument arrays as launched. -/
def Gm (c : Dev nD) : Buf (Elt Ideal) ((c.tc : Thread nD τ).loc main_v2) :=
  Cert.Spec.G (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-! ## The index maps and the cuts, decided over the grid -/

/-- Over the seventeen points: the adjacency's and the result's blocks sit at block row `t`, block column 0; every
    other window's one block sits at the origin. -/
theorem idx_facts : ∀ t : Fin cfg0.N,
    win0_6.index t 0 = t.val ∧ win0_6.index t 1 = 0 ∧ win0_1.index t 0 = t.val ∧ win0_1.index t 1 = 0
    ∧ win0_0.index t 0 = 0 ∧ win0_0.index t 1 = 0 ∧ win0_2.index t 0 = 0 ∧ win0_2.index t 1 = 0
    ∧ win0_3.index t 0 = 0 ∧ win0_3.index t 1 = 0 ∧ win0_4.index t 0 = 0 ∧ win0_4.index t 1 = 0
    ∧ win0_5.index t 0 = 0 ∧ win0_5.index t 1 = 0 :=
  (by decide +kernel : ∀ t : Fin grid0.N, _)

/-- Over the seventeen points: the adjacency block and the result block are cut to the same number of rows, which
    end inside the array, and neither is cut along its columns. -/
theorem cut_facts : ∀ t : Fin cfg0.N,
    win0_1.xsize (grid0.coords t) 0 = win0_6.xsize (grid0.coords t) 0
    ∧ win0_1.xsize (grid0.coords t) 1 = 10000 ∧ win0_6.xsize (grid0.coords t) 1 = 128
    ∧ t.val * 624 + win0_6.xsize (grid0.coords t) 0 ≤ 10000 ∧ win0_6.xsize (grid0.coords t) 0 ≤ 624 :=
  (by decide +kernel : ∀ t : Fin grid0.N, _)

/-! ## A filled-out block read inside its moved part -/

/-- Where every coordinate lies in the moved part, the filled-out block is the moved part there. -/
theorem fill_inside {G : Pipeline.Grid} (w : Pipeline.Window sig G) {α : Type} (i : G.Coords) (d : w.block.Idx → α)
    (g : (w.xblock i).Idx → α) (J : w.block.Idx) (h : ∀ a, (J a).val < w.xsize i a) :
    w.fill i d g J = g fun a => ⟨(J a).val, h a⟩ := by
  unfold Pipeline.Window.fill
  rw [dif_pos ((w.moved_iff i J).mpr h)]

/-! ## The blocks that no point moves: each is its whole array -/

/-- Window 0's one block is its whole array as launched. -/
theorem iblk0_eq (c : Dev nD) (t : Fin cfg0.N) :
    iblk (F := Ideal) m c 0 t = m ((c.tc : Thread nD τ).loc main_arg0) := by
  funext y
  show V m c main_arg0 (((cfg0.win 0).blk t).view.emb y) = _
  rw [V_main_arg0]
  refine congrArg _ (funext fun a => Fin.ext ?_)
  have e := idx_facts t
  match a with
  | ⟨0, _⟩ =>
    show win0_0.index t 0 * 10000 + 1 * (y 0).val = (y 0).val
    rw [e.2.2.2.2.1]; omega
  | ⟨1, _⟩ =>
    show win0_0.index t 1 * 128 + 1 * (y 1).val = (y 1).val
    rw [e.2.2.2.2.2.1]; omega

/-- Window 2's one block is its whole array as launched. -/
theorem iblk2_eq (c : Dev nD) (t : Fin cfg0.N) :
    iblk (F := Ideal) m c 2 t = m ((c.tc : Thread nD τ).loc main_arg2) := by
  funext y
  show V m c main_arg2 (((cfg0.win 2).blk t).view.emb y) = _
  rw [V_main_arg2]
  refine congrArg _ (funext fun a => Fin.ext ?_)
  have e := idx_facts t
  match a with
  | ⟨0, _⟩ =>
    show win0_2.index t 0 * 128 + 1 * (y 0).val = (y 0).val
    rw [e.2.2.2.2.2.2.1]; omega
  | ⟨1, _⟩ =>
    show win0_2.index t 1 * 24 + 1 * (y 1).val = (y 1).val
    rw [e.2.2.2.2.2.2.2.1]; omega

/-- Window 4's one block is its whole array as launched. -/
theorem iblk4_eq (c : Dev nD) (t : Fin cfg0.N) :
    iblk (F := Ideal) m c 4 t = m ((c.tc : Thread nD τ).loc main_arg4) := by
  funext y
  show V m c main_arg4 (((cfg0.win 4).blk t).view.emb y) = _
  rw [V_main_arg4]
  refine congrArg _ (funext fun a => Fin.ext ?_)
  have e := idx_facts t
  match a with
  | ⟨0, _⟩ =>
    show win0_4.index t 0 * 24 + 1 * (y 0).val = (y 0).val
    rw [e.2.2.2.2.2.2.2.2.2.2.1]; omega
  | ⟨1, _⟩ =>
    show win0_4.index t 1 * 128 + 1 * (y 1).val = (y 1).val
    rw [e.2.2.2.2.2.2.2.2.2.2.2.1]; omega

/-- The support matrix's entry `(l, k)` is row `l` of `x` against column `k` of `W1`, of the arrays as launched. -/
theorem sup_apply (c : Dev nD) (l : Fin 10000) (k : Fin 24) :
    sup (F := Ideal) m c (ix2 l k)
      = Cert.Spec.supAt (m ((c.tc : Thread nD τ).loc main_arg0)) (m ((c.tc : Thread nD τ).loc main_arg2)) l k := by
  unfold sup
  rw [pay1_apply, iblk0_eq, iblk2_eq]

/-! ## The two bias rows: vectors cast to one-row arrays before the region -/

/-- Window 3's one block at `(0, k)` is entry `k` of the first bias vector as launched. -/
theorem iblk3_apply (c : Dev nD) (t : Fin cfg0.N) (k : Fin 24) :
    iblk (F := Ideal) m c 3 t (ix2 (0 : Fin 1) k) = m ((c.tc : Thread nD τ).loc main_arg3) (ix1 k) := by
  have hv : (V m c main_v0 : S1x24.Idx → EReal)
      = shapeCast S1x24 (m ((c.tc : Thread nD τ).loc main_arg3)) shapeCasts_S24_S1x24 := by
    dsimp only [Gen.V, Gen.hostOps0]; after_results; rfl
  have he : ((cfg0.win 3).blk t).view.emb (ix2 (0 : Fin 1) k) = ix2 (0 : Fin 1) k :=
    funext fun a => Fin.ext (by
      have e := idx_facts t
      match a with
      | ⟨0, _⟩ =>
        show win0_3.index t 0 * 1 + 1 * 0 = 0
        rw [e.2.2.2.2.2.2.2.2.1]
      | ⟨1, _⟩ =>
        show win0_3.index t 1 * 24 + 1 * k.val = k.val
        rw [e.2.2.2.2.2.2.2.2.2.1]; omega)
  show V m c main_v0 (((cfg0.win 3).blk t).view.emb (ix2 (0 : Fin 1) k)) = _
  rw [he]
  refine (congrFun hv _).trans ?_
  exact shapeCast_a_1a_apply _ _ 0 k

/-- Window 5's one block at `(0, k)` is entry `k` of the second bias vector as launched. -/
theorem iblk5_apply (c : Dev nD) (t : Fin cfg0.N) (k : Fin 128) :
    iblk (F := Ideal) m c 5 t (ix2 (0 : Fin 1) k) = m ((c.tc : Thread nD τ).loc main_arg5) (ix1 k) := by
  have hv : (V m c main_v1 : S1x128.Idx → EReal)
      = shapeCast S1x128 (m ((c.tc : Thread nD τ).loc main_arg5)) shapeCasts_S128_S1x128 := by
    dsimp only [Gen.V, Gen.hostOps0]; after_results; rfl
  have he : ((cfg0.win 5).blk t).view.emb (ix2 (0 : Fin 1) k) = ix2 (0 : Fin 1) k :=
    funext fun a => Fin.ext (by
      have e := idx_facts t
      match a with
      | ⟨0, _⟩ =>
        show win0_5.index t 0 * 1 + 1 * 0 = 0
        rw [e.2.2.2.2.2.2.2.2.2.2.2.2.1]
      | ⟨1, _⟩ =>
        show win0_5.index t 1 * 128 + 1 * k.val = k.val
        rw [e.2.2.2.2.2.2.2.2.2.2.2.2.2]; omega)
  show V m c main_v1 (((cfg0.win 5).blk t).view.emb (ix2 (0 : Fin 1) k)) = _
  rw [he]
  refine (congrFun hv _).trans ?_
  exact shapeCast_a_1a_apply _ _ 0 k

/-! ## The adjacency block's rows inside the array -/

/-- Row `r` of the filled-out adjacency block, `r` among the rows the fetch moves, is row `t · 624 + r` of the
    adjacency matrix as launched. -/
theorem abuf_row (c : Dev nD) (t : Fin cfg0.N) (r : Fin 624) (hr : r.val < win0_6.xsize (grid0.coords t) 0)
    (R : Fin 10000) (hR : R.val = t.val * 624 + r.val) (l : Fin 10000) :
    abuf (F := Ideal) m c t (ix2 r l) = m ((c.tc : Thread nD τ).loc main_arg1) (ix2 R l) := by
  obtain ⟨x0, x1, -, -, -⟩ := cut_facts t
  have hin : ∀ a : Fin 2, ((ix2 r l : S624x10000.Idx) a).val < win0_1.xsize (grid0.coords t) a := fun a => by
    match a with
    | ⟨0, _⟩ =>
      show r.val < win0_1.xsize (grid0.coords t) 0
      rw [x0]; exact hr
    | ⟨1, _⟩ =>
      show l.val < win0_1.xsize (grid0.coords t) 1
      rw [x1]; exact l.isLt
  unfold abuf
  refine (fill_inside win0_1 (grid0.coords t) _ _ (ix2 r l) hin).trans ?_
  show V m c main_arg1 (((cfg0.win 1).blk t).view.emb _) = _
  rw [V_main_arg1]
  refine congrArg _ (funext fun a => Fin.ext ?_)
  have e := idx_facts t
  match a with
  | ⟨0, _⟩ =>
    show win0_1.index t 0 * 624 + 1 * r.val = R.val
    rw [e.2.2.1, hR]; omega
  | ⟨1, _⟩ =>
    show win0_1.index t 1 * 10000 + 1 * l.val = l.val
    rw [e.2.2.2.1]; omega

/-! ## One row of the result from equal pieces -/

/-- An output row's entry depends on its five ingredients only through their values. -/
theorem rowOut_congr {a a' : Fin 10000 → EReal} {s s' : Fin 10000 → Fin 24 → EReal} {b b' : Fin 24 → EReal}
    {w w' : (⟨2, ![24, 128]⟩ : Shape).Idx → EReal} {d d' : Fin 128 → EReal} (j : Fin 128)
    (ha : ∀ l, a l = a' l) (hs : ∀ l k, s l k = s' l k) (hb : ∀ k, b k = b' k) (hw : w = w') (hd : ∀ k, d k = d' k) :
    Cert.Spec.rowOut a s b w d j = Cert.Spec.rowOut a' s' b' w' d' j := by
  obtain rfl : a = a' := funext ha
  obtain rfl : s = s' := funext fun l => funext (hs l)
  obtain rfl : b = b' := funext hb
  obtain rfl : d = d' := funext hd
  subst hw
  rfl

/-! ## What a point writes back -/

/-- Point `t` writes back block `t` of `Gm` (its rows inside the array). -/
theorem flushed_eq (c : Dev nD) (t : Fin cfg0.N) :
    (dats (F := Ideal) m 0 c).flushed 6 t = ((cfg0.win 6).blk t).view.read (Elt Ideal) (Gm m c) := by
  show (cfg0.win 6).cut (grid0.coords t) ((dats (F := Ideal) m 0 c).after 6 t) = _
  rw [after_6]
  funext j
  obtain ⟨-, -, x2, x3, x4⟩ := cut_facts t
  have e := idx_facts t
  have hj0 : (j 0).val < win0_6.xsize (grid0.coords t) 0 := (j 0).isLt
  have hj1 : (j 1).val < win0_6.xsize (grid0.coords t) 1 := (j 1).isLt
  rw [x2] at hj1
  obtain ⟨r, hr⟩ : ∃ r : Fin 624, r.val = (j 0).val := ⟨⟨(j 0).val, by omega⟩, rfl⟩
  obtain ⟨q, hq⟩ : ∃ q : Fin 128, q.val = (j 1).val := ⟨⟨(j 1).val, hj1⟩, rfl⟩
  obtain ⟨R, hR⟩ : ∃ R : Fin 10000, R.val = t.val * 624 + r.val := ⟨⟨t.val * 624 + r.val, by omega⟩, rfl⟩
  have hx : (cfg0.win 6).xinj (grid0.coords t) j = ix2 r q := funext fun a => Fin.ext (by
    match a with
    | ⟨0, _⟩ => exact hr.symm
    | ⟨1, _⟩ => exact hq.symm)
  have hemb : ((cfg0.win 6).blk t).view.emb j = ix2 R q := funext fun a => Fin.ext (by
    match a with
    | ⟨0, _⟩ =>
      show win0_6.index t 0 * 624 + 1 * (j 0).val = R.val
      rw [e.1, hR, hr]; omega
    | ⟨1, _⟩ =>
      show win0_6.index t 1 * 128 + 1 * (j 1).val = q.val
      rw [e.2.1, hq]; omega)
  show oblk m c t ((cfg0.win 6).xinj (grid0.coords t) j) = Gm m c (((cfg0.win 6).blk t).view.emb j)
  rw [hx, hemb]
  unfold oblk Gm Cert.Spec.G
  refine (pay2_apply _ _ _ _ _ r q).trans ?_
  exact rowOut_congr q (fun l => abuf_row m c t r (hr ▸ hj0) R hR l) (fun l k => sup_apply m c l k)
    (fun k => iblk3_apply m c t k) (iblk4_eq m c t) (fun k => iblk5_apply m c t k)

end Cert.KernelIdeal.Hand

end
-- ==== Proof.KIValue.lean ====
/-
  The result array after the run: the seventeen row blocks (the last one cut at the array's end) cover all 10000
  rows, so the array ends holding the specification's result.
-/
import proofs.«153029_g5626407157816_cont_9to1c4b_88_11_alg».proof.Proof.KIFlush
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The blocks of the result window in closed form over the grid: block `t` starts at row `624 · t` and column 0,
    spans all 128 columns, and has `min 624 (10000 - 624 · t)` rows (624 of them, but 16 for the last block, since
    `10000 = 16 · 624 + 16`). -/
theorem blk_forms : ∀ t : Fin grid0.N, win0_6.index t 0 = t.val ∧ win0_6.index t 1 * win0_6.size 1 = 0 ∧
    win0_6.xsize (grid0.coords t) 1 = 128 ∧ win0_6.xsize (grid0.coords t) 0 = min 624 (10000 - 624 * t.val) := by
  decide +kernel

/-- An index of the array is in block `t` iff its row is among the block's rows inside the array (every column
    is: the blocks span the columns). -/
theorem mem_blk (t : Fin grid0.N) (i : S10000x128.Idx) :
    i ∈ (win0_6.blk t).view.set ↔
      win0_6.index t 0 * 624 ≤ (i 0 : Nat) ∧ (i 0 : Nat) < win0_6.index t 0 * 624 + win0_6.xsize (grid0.coords t) 0 := by
  show i ∈ ((View.whole main_v2).slice (win0_6.rect t)).set ↔ _
  rw [View.set_slice_whole, Rect.mem_set_unit]
  have h1 : (i 1 : Nat) < 128 := (i 1).isLt
  obtain ⟨_, e1, e2, _⟩ := blk_forms t
  refine ⟨fun h => h 0, fun h a => ?_⟩
  match a with
  | ⟨0, _⟩ => exact h
  | ⟨1, _⟩ =>
    change win0_6.index t 1 * win0_6.size 1 ≤ (i 1 : Nat) ∧ (i 1 : Nat) < win0_6.index t 1 * win0_6.size 1 + win0_6.xsize (grid0.coords t) 1
    rw [e1, e2]; omega

/-- Every index of the result array lies in the block of the point `row / 624`. -/
theorem cover (c : Dev nD) (i : ((cfg0.win 6).arr.view.loc (c.tc : Thread nD τ)).2.ty.Idx) :
    ∃ t : Fin cfg0.N, (cfg0.win 6).flush t = true ∧ i ∈ ((cfg0.win 6).blk t).view.set := by
  -- a row is below 10000, so its quotient by 624 is at most 16: one of the seventeen points
  have h0 : (i 0 : Nat) < 10000 := (i 0).isLt
  have ht : (i 0).val / 624 < grid0.N := by rw [N_0]; omega
  refine ⟨⟨(i 0).val / 624, ht⟩, flush0_6 _, ?_⟩
  obtain ⟨e0, _, _, e3⟩ := blk_forms ⟨(i 0).val / 624, ht⟩
  refine (mem_blk ⟨(i 0).val / 624, ht⟩ i).mpr ?_
  rw [e0, e3]
  -- with `q = row / 624`: `624 · q ≤ row < 624 · q + 624`, and `row < 10000` gives `row < 624 · q + (10000 - 624 · q)`
  show (i 0).val / 624 * 624 ≤ (i 0).val ∧ (i 0).val < (i 0).val / 624 * 624 + min 624 (10000 - 624 * ((i 0).val / 624))
  omega

/-- The result array after the last write-back is the specification's result. -/
theorem final_eq (c : Dev nD) : (dats (F := Ideal) m 0 c).arrAt 6 cfg0.N = Gm m c :=
  (dats (F := Ideal) m 0 c).arrAt_eq_of_cover 6 (Gm m c) (fun t _ => flushed_eq m c t) (cover c)

end Cert.KernelIdeal.Hand

end
-- ==== Proof.KIClaim.lean ====
/-
  The idealized kernel's run with its result named: the result array ends at the specification's result of the
  argument arrays, and the six arguments end as launched.
-/
import proofs.«153029_g5626407157816_cont_9to1c4b_88_11_alg».proof.Proof.KIRun
import proofs.«153029_g5626407157816_cont_9to1c4b_88_11_alg».proof.Proof.KIValue

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The frame post read at the result array (`final_eq`) and at the arguments: a staged input's array is never
    written, and an array no window stages is among the buffers the region leaves as found. -/
theorem value_run :
    θ_run defs (onTc (τ := τ) (main (F := Ideal))) ⟨m, fun _ => 0, ρ⟩ (fun r => ∀ c : Dev nD,
      r.2.mem ((c.tc : Thread nD τ).loc main_v2) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 6).trans (final_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Hand

end
-- ==== Proof.RefRead.lean ====
/-
  The reference's result as ONE term of its argument arrays, and that term read at an index.
-/
import proofs.«153029_g5626407157816_cont_9to1c4b_88_11_alg».proof.ReferenceIdeal
import proofs.«153029_g5626407157816_cont_9to1c4b_88_11_alg».proof.Proof.Gen.ReferenceIdeal
import proofs.«153029_g5626407157816_cont_9to1c4b_88_11_alg».proof.Proof.Spec
import Idealize.ShloMosaic.PureOps.Ideal.Laws
import Idealize.ShloMosaic.Lib.ValueIdx
import Idealize.ShloMosaic.Lib.IdealHost
import Idealize.ShloMosaic.Lib.KernelVsHost

noncomputable section

namespace Cert.ReferenceIdeal.Hand

open Idealize.ShloMosaic Idealize.ShloMosaic.ValueIdx Cert.ReferenceIdeal
open Cert.ReferenceIdeal.Facts₀

/-- The reference's leaky relu on the whole hidden array, operation by operation as the program applies them:
    compare with the zero splat, multiply by the slope splat, select. -/
def lreluArr (h : FVec Ideal S10000x24 .f32) (sl : FVec Ideal S_ .f32) : FVec Ideal S10000x24 .f32 :=
  select (cmpf .oge h (broadcastInDim S10000x24 ![] bcast_S_S10000x24 (constant (F := Ideal) S_ .f32 0x00000000#32)))
    h (mulf (broadcastInDim S10000x24 ![] bcast_S_S10000x24 (id sl)) h)

/-- The reference's result, as the composition of its operations on the argument arrays. -/
def refTerm (x : FVec Ideal S10000x128 .f32) (adj : FVec Ideal S10000x10000 .f32) (w1 : FVec Ideal S128x24 .f32)
    (b1 : FVec Ideal S24 .f32) (w2 : FVec Ideal S24x128 .f32) (b2 : FVec Ideal S128 .f32) : FVec Ideal S10000x128 .f32 :=
  Host.tanh (addf
    (Host.dotGeneral dot_S10000x24_S24x128_S10000x128_1_0_0_1_n_n none
      (lreluArr
        (addf (Host.dotGeneral dot_S10000x10000_S10000x24_S10000x24_1_0_0_1_n_n none adj
                (Host.dotGeneral dot_S10000x128_S128x24_S10000x24_1_0_0_1_n_n none x w1))
              (broadcastInDim S10000x24 ![0, 1] bcast_S1x24_S10000x24_0_1 (broadcastInDim S1x24 ![1] bcast_S24_S1x24_1 b1)))
        (constant (F := Ideal) S_ .f32 0x3C23D70A#32))
      w2)
    (broadcastInDim S10000x128 ![0, 1] bcast_S1x128_S10000x128_0_1 (broadcastInDim S1x128 ![1] bcast_S128_S1x128_1 b2)))

/-! ### The first contraction, `x · W1`, read at an index -/

/-- The left operand's row is the result's row. -/
theorem supDot_lhs_0 (i : S10000x24.Idx) (c : dot_S10000x128_S128x24_S10000x24_1_0_0_1_n_n.contr.Idx) :
    (dot_S10000x128_S128x24_S10000x24_1_0_0_1_n_n.lhsIdx i c 0).val = (i 0).val := by
  unfold DotDims.lhsIdx
  rw [dif_neg (show ¬(0 : Fin S10000x128.rank) ∈ dot_S10000x128_S128x24_S10000x24_1_0_0_1_n_n.lhsBatch by decide),
    dif_pos (show (0 : Fin S10000x128.rank) ∈ dot_S10000x128_S128x24_S10000x24_1_0_0_1_n_n.lhsNonContracting by decide)]
  rfl

/-- The left operand's column is the contraction position. -/
theorem supDot_lhs_1 (i : S10000x24.Idx) (c : dot_S10000x128_S128x24_S10000x24_1_0_0_1_n_n.contr.Idx) :
    (dot_S10000x128_S128x24_S10000x24_1_0_0_1_n_n.lhsIdx i c 1).val = (c ⟨0, by decide⟩).val :=
  dot_S10000x128_S128x24_S10000x24_1_0_0_1_n_n.lhsIdx_val_of_single rfl i c

/-- The right operand's row is the contraction position. -/
theorem supDot_rhs_0 (i : S10000x24.Idx) (c : dot_S10000x128_S128x24_S10000x24_1_0_0_1_n_n.contr.Idx) :
    (dot_S10000x128_S128x24_S10000x24_1_0_0_1_n_n.rhsIdx i c 0).val = (c ⟨0, by decide⟩).val :=
  dot_S10000x128_S128x24_S10000x24_1_0_0_1_n_n.rhsIdx_val_of_single rfl i c

/-- The right operand's column is the result's column. -/
theorem supDot_rhs_1 (i : S10000x24.Idx) (c : dot_S10000x128_S128x24_S10000x24_1_0_0_1_n_n.contr.Idx) :
    (dot_S10000x128_S128x24_S10000x24_1_0_0_1_n_n.rhsIdx i c 1).val = (i 1).val := by
  unfold DotDims.rhsIdx
  rw [dif_neg (show ¬(1 : Fin S128x24.rank) ∈ dot_S10000x128_S128x24_S10000x24_1_0_0_1_n_n.rhsBatch by decide),
    dif_pos (show (1 : Fin S128x24.rank) ∈ dot_S10000x128_S128x24_S10000x24_1_0_0_1_n_n.rhsNonContracting by decide)]
  rfl

/-- Entry (r, t) of the product is the sum over the 128 contraction positions of row r times column t. -/
theorem supDot_apply (A : FVec Ideal S10000x128 .f32) (B : FVec Ideal S128x24 .f32) (r : Fin 10000) (t : Fin 24) :
    Host.dotGeneral dot_S10000x128_S128x24_S10000x24_1_0_0_1_n_n none A B (ix2 r t) = ∑ c : Fin 128, A (ix2 r c) * B (ix2 c t) := by
  simp only [Host.dotGeneral]
  rw [Ideal.dotGeneral_apply, ← Equiv.sum_comp (contrEquiv1 dot_S10000x128_S128x24_S10000x24_1_0_0_1_n_n 128 rfl rfl).symm]
  refine Finset.sum_congr rfl fun c _ => ?_
  have hc := contrEquiv1_symm_val dot_S10000x128_S128x24_S10000x24_1_0_0_1_n_n 128 rfl rfl c
  have el : dot_S10000x128_S128x24_S10000x24_1_0_0_1_n_n.lhsIdx (ix2 r t) ((contrEquiv1 dot_S10000x128_S128x24_S10000x24_1_0_0_1_n_n 128 rfl rfl).symm c) = ix2 r c :=
    funext fun a => Fin.ext (by
      match a with
      | ⟨0, _⟩ => exact supDot_lhs_0 _ _
      | ⟨1, _⟩ => exact (supDot_lhs_1 _ _).trans hc)
  have er : dot_S10000x128_S128x24_S10000x24_1_0_0_1_n_n.rhsIdx (ix2 r t) ((contrEquiv1 dot_S10000x128_S128x24_S10000x24_1_0_0_1_n_n 128 rfl rfl).symm c) = ix2 c t :=
    funext fun a => Fin.ext (by
      match a with
      | ⟨0, _⟩ => exact (supDot_rhs_0 _ _).trans hc
      | ⟨1, _⟩ => exact supDot_rhs_1 _ _)
  rw [el, er]

/-! ### The second contraction, `adj · sup`, read at an index -/

/-- The left operand's row is the result's row. -/
theorem aggDot_lhs_0 (i : S10000x24.Idx) (c : dot_S10000x10000_S10000x24_S10000x24_1_0_0_1_n_n.contr.Idx) :
    (dot_S10000x10000_S10000x24_S10000x24_1_0_0_1_n_n.lhsIdx i c 0).val = (i 0).val := by
  unfold DotDims.lhsIdx
  rw [dif_neg (show ¬(0 : Fin S10000x10000.rank) ∈ dot_S10000x10000_S10000x24_S10000x24_1_0_0_1_n_n.lhsBatch by decide),
    dif_pos (show (0 : Fin S10000x10000.rank) ∈ dot_S10000x10000_S10000x24_S10000x24_1_0_0_1_n_n.lhsNonContracting by decide)]
  rfl

/-- The left operand's column is the contraction position. -/
theorem aggDot_lhs_1 (i : S10000x24.Idx) (c : dot_S10000x10000_S10000x24_S10000x24_1_0_0_1_n_n.contr.Idx) :
    (dot_S10000x10000_S10000x24_S10000x24_1_0_0_1_n_n.lhsIdx i c 1).val = (c ⟨0, by decide⟩).val :=
  dot_S10000x10000_S10000x24_S10000x24_1_0_0_1_n_n.lhsIdx_val_of_single rfl i c

/-- The right operand's row is the contraction position. -/
theorem aggDot_rhs_0 (i : S10000x24.Idx) (c : dot_S10000x10000_S10000x24_S10000x24_1_0_0_1_n_n.contr.Idx) :
    (dot_S10000x10000_S10000x24_S10000x24_1_0_0_1_n_n.rhsIdx i c 0).val = (c ⟨0, by decide⟩).val :=
  dot_S10000x10000_S10000x24_S10000x24_1_0_0_1_n_n.rhsIdx_val_of_single rfl i c

/-- The right operand's column is the result's column. -/
theorem aggDot_rhs_1 (i : S10000x24.Idx) (c : dot_S10000x10000_S10000x24_S10000x24_1_0_0_1_n_n.contr.Idx) :
    (dot_S10000x10000_S10000x24_S10000x24_1_0_0_1_n_n.rhsIdx i c 1).val = (i 1).val := by
  unfold DotDims.rhsIdx
  rw [dif_neg (show ¬(1 : Fin S10000x24.rank) ∈ dot_S10000x10000_S10000x24_S10000x24_1_0_0_1_n_n.rhsBatch by decide),
    dif_pos (show (1 : Fin S10000x24.rank) ∈ dot_S10000x10000_S10000x24_S10000x24_1_0_0_1_n_n.rhsNonContracting by decide)]
  rfl

/-- Entry (r, t) of the product is the sum over the 10000 contraction positions of row r times column t. -/
theorem aggDot_apply (A : FVec Ideal S10000x10000 .f32) (B : FVec Ideal S10000x24 .f32) (r : Fin 10000) (t : Fin 24) :
    Host.dotGeneral dot_S10000x10000_S10000x24_S10000x24_1_0_0_1_n_n none A B (ix2 r t) = ∑ c : Fin 10000, A (ix2 r c) * B (ix2 c t) := by
  simp only [Host.dotGeneral]
  rw [Ideal.dotGeneral_apply, ← Equiv.sum_comp (contrEquiv1 dot_S10000x10000_S10000x24_S10000x24_1_0_0_1_n_n 10000 rfl rfl).symm]
  refine Finset.sum_congr rfl fun c _ => ?_
  have hc := contrEquiv1_symm_val dot_S10000x10000_S10000x24_S10000x24_1_0_0_1_n_n 10000 rfl rfl c
  have el : dot_S10000x10000_S10000x24_S10000x24_1_0_0_1_n_n.lhsIdx (ix2 r t) ((contrEquiv1 dot_S10000x10000_S10000x24_S10000x24_1_0_0_1_n_n 10000 rfl rfl).symm c) = ix2 r c :=
    funext fun a => Fin.ext (by
      match a with
      | ⟨0, _⟩ => exact aggDot_lhs_0 _ _
      | ⟨1, _⟩ => exact (aggDot_lhs_1 _ _).trans hc)
  have er : dot_S10000x10000_S10000x24_S10000x24_1_0_0_1_n_n.rhsIdx (ix2 r t) ((contrEquiv1 dot_S10000x10000_S10000x24_S10000x24_1_0_0_1_n_n 10000 rfl rfl).symm c) = ix2 c t :=
    funext fun a => Fin.ext (by
      match a with
      | ⟨0, _⟩ => exact (aggDot_rhs_0 _ _).trans hc
      | ⟨1, _⟩ => exact aggDot_rhs_1 _ _)
  rw [el, er]

/-! ### The third contraction, `hidden · W2`, read at an index -/

/-- The left operand's row is the result's row. -/
theorem outDot_lhs_0 (i : S10000x128.Idx) (c : dot_S10000x24_S24x128_S10000x128_1_0_0_1_n_n.contr.Idx) :
    (dot_S10000x24_S24x128_S10000x128_1_0_0_1_n_n.lhsIdx i c 0).val = (i 0).val := by
  unfold DotDims.lhsIdx
  rw [dif_neg (show ¬(0 : Fin S10000x24.rank) ∈ dot_S10000x24_S24x128_S10000x128_1_0_0_1_n_n.lhsBatch by decide),
    dif_pos (show (0 : Fin S10000x24.rank) ∈ dot_S10000x24_S24x128_S10000x128_1_0_0_1_n_n.lhsNonContracting by decide)]
  rfl

/-- The left operand's column is the contraction position. -/
theorem outDot_lhs_1 (i : S10000x128.Idx) (c : dot_S10000x24_S24x128_S10000x128_1_0_0_1_n_n.contr.Idx) :
    (dot_S10000x24_S24x128_S10000x128_1_0_0_1_n_n.lhsIdx i c 1).val = (c ⟨0, by decide⟩).val :=
  dot_S10000x24_S24x128_S10000x128_1_0_0_1_n_n.lhsIdx_val_of_single rfl i c

/-- The right operand's row is the contraction position. -/
theorem outDot_rhs_0 (i : S10000x128.Idx) (c : dot_S10000x24_S24x128_S10000x128_1_0_0_1_n_n.contr.Idx) :
    (dot_S10000x24_S24x128_S10000x128_1_0_0_1_n_n.rhsIdx i c 0).val = (c ⟨0, by decide⟩).val :=
  dot_S10000x24_S24x128_S10000x128_1_0_0_1_n_n.rhsIdx_val_of_single rfl i c

/-- The right operand's column is the result's column. -/
theorem outDot_rhs_1 (i : S10000x128.Idx) (c : dot_S10000x24_S24x128_S10000x128_1_0_0_1_n_n.contr.Idx) :
    (dot_S10000x24_S24x128_S10000x128_1_0_0_1_n_n.rhsIdx i c 1).val = (i 1).val := by
  unfold DotDims.rhsIdx
  rw [dif_neg (show ¬(1 : Fin S24x128.rank) ∈ dot_S10000x24_S24x128_S10000x128_1_0_0_1_n_n.rhsBatch by decide),
    dif_pos (show (1 : Fin S24x128.rank) ∈ dot_S10000x24_S24x128_S10000x128_1_0_0_1_n_n.rhsNonContracting by decide)]
  rfl

/-- Entry (r, t) of the product is the sum over the 24 contraction positions of row r times column t. -/
theorem outDot_apply (A : FVec Ideal S10000x24 .f32) (B : FVec Ideal S24x128 .f32) (r : Fin 10000) (t : Fin 128) :
    Host.dotGeneral dot_S10000x24_S24x128_S10000x128_1_0_0_1_n_n none A B (ix2 r t) = ∑ c : Fin 24, A (ix2 r c) * B (ix2 c t) := by
  simp only [Host.dotGeneral]
  rw [Ideal.dotGeneral_apply, ← Equiv.sum_comp (contrEquiv1 dot_S10000x24_S24x128_S10000x128_1_0_0_1_n_n 24 rfl rfl).symm]
  refine Finset.sum_congr rfl fun c _ => ?_
  have hc := contrEquiv1_symm_val dot_S10000x24_S24x128_S10000x128_1_0_0_1_n_n 24 rfl rfl c
  have el : dot_S10000x24_S24x128_S10000x128_1_0_0_1_n_n.lhsIdx (ix2 r t) ((contrEquiv1 dot_S10000x24_S24x128_S10000x128_1_0_0_1_n_n 24 rfl rfl).symm c) = ix2 r c :=
    funext fun a => Fin.ext (by
      match a with
      | ⟨0, _⟩ => exact outDot_lhs_0 _ _
      | ⟨1, _⟩ => exact (outDot_lhs_1 _ _).trans hc)
  have er : dot_S10000x24_S24x128_S10000x128_1_0_0_1_n_n.rhsIdx (ix2 r t) ((contrEquiv1 dot_S10000x24_S24x128_S10000x128_1_0_0_1_n_n 24 rfl rfl).symm c) = ix2 c t :=
    funext fun a => Fin.ext (by
      match a with
      | ⟨0, _⟩ => exact (outDot_rhs_0 _ _).trans hc
      | ⟨1, _⟩ => exact outDot_rhs_1 _ _)
  rw [el, er]

/-! ### The two bias rows, each cast to one row and copied down the rows, read at an index -/

/-- The hidden layer's bias at (r, t) is entry t of the bias vector. -/
theorem hidBias_apply (b : FVec Ideal S24 .f32) (r : Fin 10000) (t : Fin 24) :
    broadcastInDim S10000x24 ![0, 1] bcast_S1x24_S10000x24_0_1 (broadcastInDim S1x24 ![1] bcast_S24_S1x24_1 b) (ix2 r t) = b (ix1 t) := by
  refine (broadcastInDim_oneRow_apply bcast_S1x24_S10000x24_0_1 _ r t).trans ?_
  refine broadcastInDim_apply ![1] bcast_S24_S1x24_1 b (ix2 (0 : Fin 1) t) (ix1 t) ?_
  intro a
  match a with
  | ⟨0, _⟩ =>
    show t.val = if (24 : ℕ) = 1 then 0 else t.val
    rw [if_neg (by decide)]

/-- The output layer's bias at (r, t) is entry t of the bias vector. -/
theorem outBias_apply (b : FVec Ideal S128 .f32) (r : Fin 10000) (t : Fin 128) :
    broadcastInDim S10000x128 ![0, 1] bcast_S1x128_S10000x128_0_1 (broadcastInDim S1x128 ![1] bcast_S128_S1x128_1 b) (ix2 r t) = b (ix1 t) := by
  refine (broadcastInDim_oneRow_apply bcast_S1x128_S10000x128_0_1 _ r t).trans ?_
  refine broadcastInDim_apply ![1] bcast_S128_S1x128_1 b (ix2 (0 : Fin 1) t) (ix1 t) ?_
  intro a
  match a with
  | ⟨0, _⟩ =>
    show t.val = if (128 : ℕ) = 1 then 0 else t.val
    rw [if_neg (by decide)]

/-! ### The pointwise stretch: leaky relu and the hyperbolic tangent at an index -/

/-- The compare-multiply-select at an index: the entry itself where it is not below zero, else the slope scalar
    times the entry. -/
theorem lreluArr_apply (h : FVec Ideal S10000x24 .f32) (sl : FVec Ideal S_ .f32) (i : S10000x24.Idx) :
    lreluArr h sl i = if 0 ≤ h i then h i else sl ix0 * h i := by
  unfold lreluArr
  rw [select_apply, cmpf_apply, mulf_apply, broadcastInDim_scalar_apply, broadcastInDim_scalar_apply,
    constant_apply, Ideal.cmpf_def, Ideal.ofBits_zero_f32]
  show Scalar.select (BitVec.ofBool (decide (0 ≤ h i))) (h i) (sl ix0 * h i) = _
  by_cases hp : 0 ≤ h i
  · rw [if_pos hp, decide_eq_true hp]
    exact select_one _ _
  · rw [if_neg hp, decide_eq_false hp]
    exact select_zero _ _

/-- The reference's hyperbolic tangent at an index is the extended reals' one of the entry. -/
theorem hostTanh_apply (y : FVec Ideal S10000x128 .f32) (i : S10000x128.Idx) :
    Host.tanh y i = Ideal.tanh (y i) := rfl

/-! ### The composed term -/

/-- Index by index the reference's term is the specification. -/
theorem refTerm_apply (x : FVec Ideal S10000x128 .f32) (adj : FVec Ideal S10000x10000 .f32) (w1 : FVec Ideal S128x24 .f32)
    (b1 : FVec Ideal S24 .f32) (w2 : FVec Ideal S24x128 .f32) (b2 : FVec Ideal S128 .f32) (i : S10000x128.Idx) :
    refTerm x adj w1 b1 w2 b2 i = Cert.Spec.G x adj w1 b1 w2 b2 i := by
  obtain ⟨p, q, rfl⟩ : ∃ (p : Fin 10000) (q : Fin 128), i = ix2 p q := ⟨i 0, i 1, eq_ix2 i⟩
  unfold refTerm
  rw [hostTanh_apply, addf_apply, outDot_apply, outBias_apply]
  show _ = Cert.Spec.rowOut (fun l => adj (ix2 p l)) (Cert.Spec.supAt x w1) (fun k => b1 (ix1 k)) w2
    (fun j => b2 (ix1 j)) q
  unfold Cert.Spec.rowOut
  refine congrArg Ideal.tanh (congrArg (· + b2 (ix1 q)) (Finset.sum_congr rfl fun k _ => ?_))
  refine congrArg (· * w2 (ix2 k q)) ?_
  rw [lreluArr_apply, addf_apply, aggDot_apply, hidBias_apply]
  have hs : ∀ l : Fin 10000,
      Host.dotGeneral dot_S10000x128_S128x24_S10000x24_1_0_0_1_n_n none x w1 (ix2 l k) = Cert.Spec.supAt x w1 l k :=
    fun l => supDot_apply x w1 l k
  simp only [hs]
  rfl

end Cert.ReferenceIdeal.Hand

end
-- ==== Proof.RefRun.lean ====
/-
  The reference program's run: every weakly fair execution ends with the result array at the reference's term of
  the argument arrays, the arguments unchanged.

  With its two function calls replaced by their bodies the program is a straight line of eighteen array
  operations, each writing one array of its own that no other operation writes. The contents of an array at the
  end are therefore the fold of the operations over the contents at the start: at the last array that fold is the
  nested term refTerm of the six arguments, at an argument it is what was there.
-/
import proofs.«153029_g5626407157816_cont_9to1c4b_88_11_alg».proof.Proof.RefRead
import Idealize.ShloMosaic.Lib.StableHlo.Run

noncomputable section

namespace Cert.ReferenceIdeal.Hand

open Idealize.ShloMosaic Idealize.ShloMosaic.TcCoe Idealize.SL.Sem Cert.ReferenceIdeal Cert.ReferenceIdeal.Gen
open Idealize.ShloMosaic.StableHlo

section Line

variable {F : FTy → Type} [FloatOps F]

/-- The program as one line, in order. First sup = x · W1, then adj · sup, the bias b1 spread over the rows
    (as a 1 × 24 array, then as 10000 × 24), their sum h, and the slope. Leaky relu's seven follow, written into
    the arrays of its one call: the zero, the zero spread over h's shape, the test h ≥ 0, the slope at its own
    type, the slope spread over h's shape, the product slope · h, and the choice between h and that product by
    the test. Last the product with W2, the bias b2 spread over the rows, their sum, and tanh. -/
abbrev line : List (HloOp τ sig (Elt F)) :=
  [ binary main_arg0 main_arg2 main_v0 ((fun l r => Host.dotGeneral dot_S10000x128_S128x24_S10000x24_1_0_0_1_n_n none l r) :
      (⟨S10000x128, .f32⟩ : BufTy).Contents (Elt F) → (⟨S128x24, .f32⟩ : BufTy).Contents (Elt F) → (⟨S10000x24, .f32⟩ : BufTy).Contents (Elt F)),
    binary main_arg1 main_v0 main_v1 ((fun l r => Host.dotGeneral dot_S10000x10000_S10000x24_S10000x24_1_0_0_1_n_n none l r) :
      (⟨S10000x10000, .f32⟩ : BufTy).Contents (Elt F) → (⟨S10000x24, .f32⟩ : BufTy).Contents (Elt F) → (⟨S10000x24, .f32⟩ : BufTy).Contents (Elt F)),
    unary main_arg3 main_v2 (broadcastInDim S1x24 ![1] bcast_S24_S1x24_1 : (⟨S24, .f32⟩ : BufTy).Contents (Elt F) → (⟨S1x24, .f32⟩ : BufTy).Contents (Elt F)),
    unary main_v2 main_v3 (broadcastInDim S10000x24 ![0, 1] bcast_S1x24_S10000x24_0_1 : (⟨S1x24, .f32⟩ : BufTy).Contents (Elt F) → (⟨S10000x24, .f32⟩ : BufTy).Contents (Elt F)),
    binary main_v1 main_v3 main_v4 (addf : (⟨S10000x24, .f32⟩ : BufTy).Contents (Elt F) → (⟨S10000x24, .f32⟩ : BufTy).Contents (Elt F) → (⟨S10000x24, .f32⟩ : BufTy).Contents (Elt F)),
    nullary main_cst (constant S_ .f32 0x3C23D70A#32),
    TRef.nullary main_call0.cst (constant S_ .f32 0x00000000#32),
    TRef.unary main_call0.cst main_call0.v0 (broadcastInDim S10000x24 ![] bcast_S_S10000x24),
    TRef.binary (.of main_v4) main_call0.v0 main_call0.v1 (cmpf .oge),
    TRef.unary (.of main_cst) main_call0.v2 id,
    TRef.unary main_call0.v2 main_call0.v3 (broadcastInDim S10000x24 ![] bcast_S_S10000x24),
    TRef.binary main_call0.v3 (.of main_v4) main_call0.v4 mulf,
    TRef.ternary main_call0.v1 (.of main_v4) main_call0.v4 main_call0.call0.v0 select,
    binary main_v5 main_arg4 main_v6 ((fun l r => Host.dotGeneral dot_S10000x24_S24x128_S10000x128_1_0_0_1_n_n none l r) :
      (⟨S10000x24, .f32⟩ : BufTy).Contents (Elt F) → (⟨S24x128, .f32⟩ : BufTy).Contents (Elt F) → (⟨S10000x128, .f32⟩ : BufTy).Contents (Elt F)),
    unary main_arg5 main_v7 (broadcastInDim S1x128 ![1] bcast_S128_S1x128_1 : (⟨S128, .f32⟩ : BufTy).Contents (Elt F) → (⟨S1x128, .f32⟩ : BufTy).Contents (Elt F)),
    unary main_v7 main_v8 (broadcastInDim S10000x128 ![0, 1] bcast_S1x128_S10000x128_0_1 : (⟨S1x128, .f32⟩ : BufTy).Contents (Elt F) → (⟨S10000x128, .f32⟩ : BufTy).Contents (Elt F)),
    binary main_v6 main_v8 main_v9 (addf : (⟨S10000x128, .f32⟩ : BufTy).Contents (Elt F) → (⟨S10000x128, .f32⟩ : BufTy).Contents (Elt F) → (⟨S10000x128, .f32⟩ : BufTy).Contents (Elt F)),
    unary main_v9 main_v10 (Host.tanh : (⟨S10000x128, .f32⟩ : BufTy).Contents (Elt F) → (⟨S10000x128, .f32⟩ : BufTy).Contents (Elt F)) ]

/-- The program is that line: with the two bodies put in place of their calls, both sides are one chain of
    steps once sequencing is associated to the right. -/
theorem main_eq_line (c : Dev nD) : main (F := F) c = seq line := by
  simp only [main, fn_leaky_relu.body, fn_where.body, seq, bind_assoc, pure_bind]

/-- No array and no counter of the program is local to a region. -/
theorem noScopedRefs : (Finset.univ.filter fun b : Ref sig .tc => b.isScoped) = ∅ := by decide
theorem noScopedSems : (Finset.univ.filter fun sm : SemLoc sig => sm.isScoped .tc) = ∅ := by decide

/-- Every operation of the line touches arrays of the device only. -/
theorem line_sub : (line : List (HloOp τ sig (Elt F))).Forall fun op => op.bufs ⊆ tcRefs τ sig :=
  ⟨binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., unary_bufs_sub ..⟩

end Line

/-- The fold at the last array. Each operation leaves at its own array its function of the arrays it reads, and
    those were last written by the operations before it; read back from tanh to the arguments, that is the nested
    term of the six arguments. -/
theorem line_result (V : Valuation τ sig (Elt Ideal)) :
    after (line (F := Ideal)) V (Proc.devRef .tc main_v10)
      = refTerm (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results
  rfl

/-- No operation of the line writes an argument: the fold leaves each where it was. -/
theorem line_arg0 (V : Valuation τ sig (Elt Ideal)) :
    after (line (F := Ideal)) V (Proc.devRef .tc main_arg0) = V (Proc.devRef .tc main_arg0) := by after_results
theorem line_arg1 (V : Valuation τ sig (Elt Ideal)) :
    after (line (F := Ideal)) V (Proc.devRef .tc main_arg1) = V (Proc.devRef .tc main_arg1) := by after_results
theorem line_arg2 (V : Valuation τ sig (Elt Ideal)) :
    after (line (F := Ideal)) V (Proc.devRef .tc main_arg2) = V (Proc.devRef .tc main_arg2) := by after_results
theorem line_arg3 (V : Valuation τ sig (Elt Ideal)) :
    after (line (F := Ideal)) V (Proc.devRef .tc main_arg3) = V (Proc.devRef .tc main_arg3) := by after_results
theorem line_arg4 (V : Valuation τ sig (Elt Ideal)) :
    after (line (F := Ideal)) V (Proc.devRef .tc main_arg4) = V (Proc.devRef .tc main_arg4) := by after_results
theorem line_arg5 (V : Valuation τ sig (Elt Ideal)) :
    after (line (F := Ideal)) V (Proc.devRef .tc main_arg5) = V (Proc.devRef .tc main_arg5) := by after_results

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  exact (θ_run defs _ _).mono
    (fun _ h c => ⟨(h c main_v10).trans (line_result _), (h c main_arg0).trans (line_arg0 _),
      (h c main_arg1).trans (line_arg1 _), (h c main_arg2).trans (line_arg2 _), (h c main_arg3).trans (line_arg3 _),
      (h c main_arg4).trans (line_arg4 _), (h c main_arg5).trans (line_arg5 _)⟩)
    (run_seq noScopedRefs noScopedSems defs main (fun _ => line) main_eq_line (fun _ => line_sub) m ρ)

end Cert.ReferenceIdeal.Hand

end
-- ==== Proof.lean ====
/-
  A graph-convolution layer, `tanh (lrelu (adj · (x · W1) + b1) · W2 + b2)`, as one kernel over seventeen row blocks
  of `adj` (624 rows each; the last block has 16 rows inside the array) that computes the support matrix `x · W1`
  into a scratch buffer at the first block and reuses it, against the plain four-line reference.

  Over the extended reals both are one function of the arguments, index by index (`Cert.Spec.G`): a matrix product
  into a zero accumulator and the host's contraction are the same finite sum; the two leaky relus test `0 < h` and
  `0 ≤ h` and differ only at `h = 0`, where both give `0`; the slope is the same f32 word on both sides and is
  never evaluated; `tanh` is one function. No law used needs finiteness, so the precondition is never opened.
  One output row reads one row of `adj`, so the rows the last block's fetch leaves unnamed (past the array's end)
  reach only output rows that the cut write-back drops.

  The frame of the kernel as printed is proved with relational proof data that say nothing of the buffers'
  contents (`Cert.Kernel.Hand.frame`); the idealized kernel's run names the result array
  (`Cert.KernelIdeal.Hand.value_run`); the reference's run is `Cert.ReferenceIdeal.Hand.run`.
-/
import proofs.«153029_g5626407157816_cont_9to1c4b_88_11_alg».proof.Defs
import proofs.«153029_g5626407157816_cont_9to1c4b_88_11_alg».proof.Proof.Gen.Kernel
import proofs.«153029_g5626407157816_cont_9to1c4b_88_11_alg».proof.Proof.Gen.KernelIdeal
import proofs.«153029_g5626407157816_cont_9to1c4b_88_11_alg».proof.Proof.Gen.ReferenceIdeal
import proofs.«153029_g5626407157816_cont_9to1c4b_88_11_alg».proof.Proof.Gen.Pre_finite_inputs
import proofs.«153029_g5626407157816_cont_9to1c4b_88_11_alg».proof.Proof.KFrame
import proofs.«153029_g5626407157816_cont_9to1c4b_88_11_alg».proof.Proof.KIClaim
import proofs.«153029_g5626407157816_cont_9to1c4b_88_11_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

/-- The idealized kernel's frame is its value run with the result dropped. -/
theorem frame_ki : Cert.frame_KernelIdeal := fun m ρ _ =>
  (θ_run Cert.KernelIdeal.defs _ _).mono (fun _ h c => (h c).2) (Cert.KernelIdeal.Hand.value_run m ρ)

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- The idealization rewrote nothing: there is nothing to preserve. -/
theorem preserves : Cert.preserves_Kernel_KernelIdeal := trivial

/-- Both runs end with the result at `Cert.Spec.G` of the (agreeing) arguments: the kernel's by its value run, the
    reference's because its composed term is `G` index by index. -/
theorem algebraic : Cert.algebraic_KernelIdeal_ReferenceIdeal := by
  intro m ρ m' ρ' _ hagree
  refine ⟨fun c => Cert.KernelIdeal.Hand.Gm m c, Cert.KernelIdeal.Hand.value_run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2.1, (hagree c).2.2.2.2.2]
  funext i
  exact Cert.ReferenceIdeal.Hand.refTerm_apply _ _ _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
